-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x128 : Shape := ⟨4, ![16, 64, 64, 128]⟩
abbrev S_ : Shape := ⟨0, ![]⟩

class Facts : Prop where
  bcast_S_S16x64x64x128 : S_.BroadcastsInDim S16x64x64x128 (![] : Fin 0 → Fin S16x64x64x128.rank)
  reducesTo_S16x64x64x128_S_d0_1_2_3 : S16x64x64x128.ReducesTo [0, 1, 2, 3] S_
  h_S_ : 0 < S_.numel

variable [Facts]

def fn_part1 {F : FTy → Type} [FloatOps F] (main_arg0 : FVec F S16x64x64x128 .f32) (main_v18 : IVec S16x64x64x128 1) : IVec S_ 1 :=
  let main_v19 : FVec F S16x64x64x128 .f32 := Host.absf main_arg0
  let main_cst : FVec F S_ .f32 := constant S_ .f32 0x7F800000#32
  let main_v20 : FVec F S16x64x64x128 .f32 := broadcastInDim S16x64x64x128 ![] bcast_S_S16x64x64x128 main_cst
  let main_v21 : IVec S16x64x64x128 1 := cmpf .olt main_v19 main_v20
  let main_c_4 : IVec S_ 1 := constantI S_ 1 1#1
  let main_v22 : IVec S_ 1 := (fun x v => Host.reduce IntOp.andi x v reducesTo_S16x64x64x128_S_d0_1_2_3 h_S_) main_v21 main_c_4
  let main_c_5 : IVec S_ 1 := constantI S_ 1 1#1
  let main_v23 : IVec S_ 1 := (fun x v => Host.reduce IntOp.andi x v reducesTo_S16x64x64x128_S_d0_1_2_3 h_S_) main_v18 main_c_5
  let main_v24 : IVec S_ 1 := andi main_v22 main_v23
  main_v24

def fn {F : FTy → Type} [FloatOps F] (main_arg0 : FVec F S16x64x64x128 .f32) (main_arg1 : IVec S16x64x64x128 32) : IVec S_ 1 :=
  let main_v0 : IVec S16x64x64x128 32 := iotaInDim S16x64x64x128 32 1
  let main_v1 : IVec S16x64x64x128 32 := iotaInDim S16x64x64x128 32 2
  let main_c : IVec S_ 32 := constantI S_ 32 32768#32
  let main_v2 : IVec S16x64x64x128 32 := broadcastInDim S16x64x64x128 ![] bcast_S_S16x64x64x128 main_c
  let main_v3 : IVec S16x64x64x128 32 := muli main_v0 main_v2
  let main_c_0 : IVec S_ 32 := constantI S_ 32 32768#32
  let main_v4 : IVec S16x64x64x128 32 := broadcastInDim S16x64x64x128 ![] bcast_S_S16x64x64x128 main_c_0
  let main_v5 : IVec S16x64x64x128 32 := addi main_v3 main_v4
  let main_c_1 : IVec S_ 32 := constantI S_ 32 16384#32
  let main_v6 : IVec S16x64x64x128 32 := broadcastInDim S16x64x64x128 ![] bcast_S_S16x64x64x128 main_c_1
  let main_v7 : IVec S16x64x64x128 32 := Host.remsi main_arg1 main_v6
  let main_c_2 : IVec S_ 32 := constantI S_ 32 256#32
  let main_v8 : IVec S16x64x64x128 32 := broadcastInDim S16x64x64x128 ![] bcast_S_S16x64x64x128 main_c_2
  let main_v9 : IVec S16x64x64x128 32 := muli main_v1 main_v8
  let main_c_3 : IVec S_ 32 := constantI S_ 32 256#32
  let main_v10 : IVec S16x64x64x128 32 := broadcastInDim S16x64x64x128 ![] bcast_S_S16x64x64x128 main_c_3
  let main_v11 : IVec S16x64x64x128 32 := addi main_v9 main_v10
  let main_v12 : IVec S16x64x64x128 1 := cmpi .sge main_arg1 main_v3
  let main_v13 : IVec S16x64x64x128 1 := cmpi .slt main_arg1 main_v5
  let main_v14 : IVec S16x64x64x128 1 := andi main_v12 main_v13
  let main_v15 : IVec S16x64x64x128 1 := cmpi .sge main_v7 main_v9
  let main_v16 : IVec S16x64x64x128 1 := andi main_v14 main_v15
  let main_v17 : IVec S16x64x64x128 1 := cmpi .slt main_v7 main_v11
  let main_v18 : IVec S16x64x64x128 1 := andi main_v16 main_v17
  fn_part1 (F := F) main_arg0 main_v18
-- ==== Kernel.lean ====
abbrev S16x64x64x128 : Shape := ⟨4, ![16, 64, 64, 128]⟩
abbrev S16x64x2x64x256 : Shape := ⟨5, ![16, 64, 2, 64, 256]⟩
abbrev S1x32x64x128 : Shape := ⟨4, ![1, 32, 64, 128]⟩
abbrev S1x32x2x64x256 : Shape := ⟨5, ![1, 32, 2, 64, 256]⟩
abbrev S32x64x128 : Shape := ⟨3, ![32, 64, 128]⟩
abbrev S1x32x1x64x128 : Shape := ⟨5, ![1, 32, 1, 64, 128]⟩
abbrev S16x128x128x128 : Shape := ⟨4, ![16, 128, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S16x64x2x64x256, .f32⟩
  | .hbm, ⟨3, _⟩ => ⟨S16x128x128x128, .f32⟩
  | .local _ .vmem, ⟨0, _⟩ => ⟨S1x32x64x128, .f32⟩
  | .local _ .vmem, ⟨1, _⟩ => ⟨S1x32x64x128, .f32⟩
  | .local _ .vmem, ⟨2, _⟩ => ⟨S1x32x64x128, .i32⟩
  | .local _ .vmem, ⟨3, _⟩ => ⟨S1x32x64x128, .i32⟩
  | .local _ .vmem, ⟨4, _⟩ => ⟨S1x32x2x64x256, .f32⟩
  | .local _ .vmem, ⟨5, _⟩ => ⟨S1x32x2x64x256, .f32⟩
  | _, _ => ⟨S16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x64x128_S1x32x64x128_0_0_0_0 : ∀ a, (![0, 0, 0, 0] : Fin 4 → Nat) a + S1x32x64x128.size a ≤ S1x32x64x128.size a
  h_S1x32x64x128 : 0 < S1x32x64x128.numel
  shapeCasts_S1x32x64x128_S32x64x128 : S1x32x64x128.ShapeCasts S32x64x128
  inb_S1x32x2x64x256_S1x32x1x64x128_0_0_0_0_0 : ∀ a, (![0, 0, 0, 0, 0] : Fin 5 → Nat) a + S1x32x1x64x128.size a ≤ S1x32x2x64x256.size a
  h_S1x32x1x64x128 : 0 < S1x32x1x64x128.numel
  shapeCasts_S1x32x1x64x128_S32x64x128 : S1x32x1x64x128.ShapeCasts S32x64x128
  shapeCasts_S32x64x128_S1x32x1x64x128 : S32x64x128.ShapeCasts S1x32x1x64x128
  inb_S1x32x2x64x256_S1x32x1x64x128_0_0_0_0_128 : ∀ a, (![0, 0, 0, 0, 128] : Fin 5 → Nat) a + S1x32x1x64x128.size a ≤ S1x32x2x64x256.size a
  inb_S1x32x2x64x256_S1x32x1x64x128_0_0_1_0_0 : ∀ a, (![0, 0, 1, 0, 0] : Fin 5 → Nat) a + S1x32x1x64x128.size a ≤ S1x32x2x64x256.size a
  inb_S1x32x2x64x256_S1x32x1x64x128_0_0_1_0_128 : ∀ a, (![0, 0, 1, 0, 128] : Fin 5 → Nat) a + S1x32x1x64x128.size a ≤ S1x32x2x64x256.size a
  shapeCasts_S16x64x2x64x256_S16x128x128x128 : S16x64x2x64x256.ShapeCasts S16x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x128.size a ≤ S16x64x64x128.size a
  hwx0_0 : ∀ i : grid0.Coords, EltTy.bits .f32 = 32 ∨ (Rect.block (s := S16x64x64x128) S1x32x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x128.size a ≤ S16x64x64x128.size a
  hwx0_1 : ∀ i : grid0.Coords, EltTy.bits .i32 = 32 ∨ (Rect.block (s := S16x64x64x128) S1x32x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x64x256.size a ≤ S16x64x2x64x256.size a
  hwx0_2 : ∀ i : grid0.Coords, EltTy.bits .f32 = 32 ∨ (Rect.block (s := S16x64x2x64x256) S1x32x2x64x256.size (cc0_transform_2 i) (hinb0_2 i)).WholeWords (EltTy.packing .f32)

variable [Facts₀]

abbrev win0_0 : Pipeline.Window sig grid0 :=
  Pipeline.Window.ofSpec (Memref.whole main_arg0) S1x32x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x2x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x128 : Shape := ⟨4, ![16, 64, 64, 128]⟩
abbrev S_ : Shape := ⟨0, ![]⟩
abbrev S16 : Shape := ⟨1, ![16]⟩
abbrev S16x1x1x1 : Shape := ⟨4, ![16, 1, 1, 1]⟩
abbrev S128 : Shape := ⟨1, ![128]⟩
abbrev S16x128x128x128 : Shape := ⟨4, ![16, 128, 128, 128]⟩
abbrev S16x64x64x128x1 : Shape := ⟨5, ![16, 64, 64, 128, 1]⟩
abbrev S16x64x64x128x4 : Shape := ⟨5, ![16, 64, 64, 128, 4]⟩

abbrev nBuf : Space → Nat
  | .hbm => 101
  | .vmem => 0
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S_, .i32⟩
  | .hbm, ⟨3, _⟩ => ⟨S_, .i32⟩
  | .hbm, ⟨4, _⟩ => ⟨S16x64x64x128, .i32⟩
  | .hbm, ⟨5, _⟩ => ⟨S16x64x64x128, .i32⟩
  | .hbm, ⟨6, _⟩ => ⟨S16x64x64x128, .i32⟩
  | .hbm, ⟨7, _⟩ => ⟨S_, .i32⟩
  | .hbm, ⟨8, _⟩ => ⟨S16x64x64x128, .i32⟩
  | .hbm, ⟨9, _⟩ => ⟨S16x64x64x128, .i1⟩
  | .hbm, ⟨10, _⟩ => ⟨S16x64x64x128, .i32⟩
  | .hbm, ⟨11, _⟩ => ⟨S16x64x64x128, .i32⟩
  | .hbm, ⟨12, _⟩ => ⟨S_, .i32⟩
  | .hbm, ⟨13, _⟩ => ⟨S16x64x64x128, .i32⟩
  | .hbm, ⟨14, _⟩ => ⟨S16x64x64x128, .i1⟩
  | .hbm, ⟨15, _⟩ => ⟨S16x64x64x128, .i1⟩
  | .hbm, ⟨16, _⟩ => ⟨S_, .i32⟩
  | .hbm, ⟨17, _⟩ => ⟨S16x64x64x128, .i32⟩
  | .hbm, ⟨18, _⟩ => ⟨S16x64x64x128, .i32⟩
  | .hbm, ⟨19, _⟩ => ⟨S16x64x64x128, .i32⟩
  | .hbm, ⟨20, _⟩ => ⟨S_, .i32⟩
  | .hbm, ⟨21, _⟩ => ⟨S_, .i32⟩
  | .hbm, ⟨22, _⟩ => ⟨S16x64x64x128, .i32⟩
  | .hbm, ⟨23, _⟩ => ⟨S16x64x64x128, .i32⟩
  | .hbm, ⟨24, _⟩ => ⟨S16x64x64x128, .i32⟩
  | .hbm, ⟨25, _⟩ => ⟨S_, .i32⟩
  | .hbm, ⟨26, _⟩ => ⟨S16x64x64x128, .i32⟩
  | .hbm, ⟨27, _⟩ => ⟨S16x64x64x128, .i1⟩
  | .hbm, ⟨28, _⟩ => ⟨S16x64x64x128, .i32⟩
  | .hbm, ⟨29, _⟩ => ⟨S16x64x64x128, .i32⟩
  | .hbm, ⟨30, _⟩ => ⟨S_, .i32⟩
  | .hbm, ⟨31, _⟩ => ⟨S16x64x64x128, .i32⟩
  | .hbm, ⟨32, _⟩ => ⟨S16x64x64x128, .i1⟩
  | .hbm, ⟨33, _⟩ => ⟨S16x64x64x128, .i1⟩
  | .hbm, ⟨34, _⟩ => ⟨S_, .i32⟩
  | .hbm, ⟨35, _⟩ => ⟨S16x64x64x128, .i32⟩
  | .hbm, ⟨36, _⟩ => ⟨S16x64x64x128, .i32⟩
  | .hbm, ⟨37, _⟩ => ⟨S16x64x64x128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S16x64x64x128, .i32⟩
  | .hbm, ⟨45, _⟩ => ⟨S16x64x64x128, .i32⟩
  | .hbm, ⟨46, _⟩ => ⟨S_, .i32⟩
  | .hbm, ⟨47, _⟩ => ⟨S16x64x64x128, .i32⟩
  | .hbm, ⟨48, _⟩ => ⟨S16x64x64x128, .i1⟩
  | .hbm, ⟨49, _⟩ => ⟨S_, .i32⟩
  | .hbm, ⟨50, _⟩ => ⟨S16x64x64x128, .i32⟩
  | .hbm, ⟨51, _⟩ => ⟨S16x64x64x128, .i1⟩
  | .hbm, ⟨52, _⟩ => ⟨S_, .i32⟩
  | .hbm, ⟨53, _⟩ => ⟨S_, .i1⟩
  | .hbm, ⟨54, _⟩ => ⟨S16x64x64x128, .i1⟩
  | .hbm, ⟨55, _⟩ => ⟨S16x64x64x128, .i1⟩
  | .hbm, ⟨56, _⟩ => ⟨S16x64x64x128, .i1⟩
  | .hbm, ⟨57, _⟩ => ⟨S16x64x64x128, .i32⟩
  | .hbm, ⟨58, _⟩ => ⟨S16x64x64x128, .i32⟩
  | .hbm, ⟨59, _⟩ => ⟨S16x64x64x128, .i32⟩
  | .hbm, ⟨60, _⟩ => ⟨S16, .i32⟩
  | .hbm, ⟨61, _⟩ => ⟨S16x1x1x1, .i32⟩
  | .hbm, ⟨62, _⟩ => ⟨S128, .i32⟩
  | .hbm, ⟨63, _⟩ => ⟨S_, .f32⟩
  | .hbm, ⟨64, _⟩ => ⟨S16x128x128x128, .f32⟩
  | .hbm, ⟨65, _⟩ => ⟨S_, .i32⟩
  | .hbm, ⟨66, _⟩ => ⟨S16x1x1x1, .i32⟩
  | .hbm, ⟨67, _⟩ => ⟨S16x1x1x1, .i1⟩
  | .hbm, ⟨68, _⟩ => ⟨S_, .i32⟩
  | .hbm, ⟨69, _⟩ => ⟨S16x1x1x1, .i32⟩
  | .hbm, ⟨70, _⟩ => ⟨S16x1x1x1, .i32⟩
  | .hbm, ⟨71, _⟩ => ⟨S16x1x1x1, .i32⟩
  | .hbm, ⟨72, _⟩ => ⟨S_, .i32⟩
  | .hbm, ⟨73, _⟩ => ⟨S16x64x64x128, .i32⟩
  | .hbm, ⟨74, _⟩ => ⟨S16x64x64x128, .i1⟩
  | .hbm, ⟨75, _⟩ => ⟨S_, .i32⟩
  | .hbm, ⟨76, _⟩ => ⟨S16x64x64x128, .i32⟩
  | .hbm, ⟨77, _⟩ => ⟨S16x64x64x128, .i32⟩
  | .hbm, ⟨78, _⟩ => ⟨S16x64x64x128, .i32⟩
  | .hbm, ⟨79, _⟩ => ⟨S_, .i32⟩
  | .hbm, ⟨80, _⟩ => ⟨S16x64x64x128, .i32⟩
  | .hbm, ⟨81, _⟩ => ⟨S16x64x64x128, .i1⟩
  | .hbm, ⟨82, _⟩ => ⟨S_, .i32⟩
  | .hbm, ⟨83, _⟩ => ⟨S16x64x64x128, .i32⟩
  | .hbm, ⟨84, _⟩ => ⟨S16x64x64x128, .i32⟩
  | .hbm, ⟨85, _⟩ => ⟨S16x64x64x128, .i32⟩
  | .hbm, ⟨86, _⟩ => ⟨S_, .i32⟩
  | .hbm, ⟨87, _⟩ => ⟨S128, .i32⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S16x64x64x128, .i32⟩
  | .hbm, ⟨94, _⟩ => ⟨S16x64x64x128, .i32⟩
  | .hbm, ⟨95, _⟩ => ⟨S16x64x64x128x1, .i32⟩
  | .hbm, ⟨96, _⟩ => ⟨S16x64x64x128x1, .i32⟩
  | .hbm, ⟨97, _⟩ => ⟨S16x64x64x128x1, .i32⟩
  | .hbm, ⟨98, _⟩ => ⟨S16x64x64x128x1, .i32⟩
  | .hbm, ⟨99, _⟩ => ⟨S16x64x64x128x4, .i32⟩
  | .hbm, ⟨100, _⟩ => ⟨S16x128x128x128, .f32⟩
  | _, _ => ⟨S16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_c_2 : Ref sig .tc := ⟨.hbm, 65, rfl⟩
abbrev main_v7 : Ref sig .tc := ⟨.hbm, 66, rfl⟩
abbrev main_v8 : Ref sig .tc := ⟨.hbm, 67, rfl⟩
abbrev main_c_3 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_c_4 : Ref sig .tc := ⟨.hbm, 72, rfl⟩
abbrev main_v12 : Ref sig .tc := ⟨.hbm, 73, rfl⟩
abbrev main_v13 : Ref sig .tc := ⟨.hbm, 74, rfl⟩
abbrev main_c_5 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_c_6 : Ref sig .tc := ⟨.hbm, 79, rfl⟩
abbrev main_v17 : Ref sig .tc := ⟨.hbm, 80, rfl⟩
abbrev main_v18 : Ref sig .tc := ⟨.hbm, 81, rfl⟩
abbrev main_c_7 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_c_8 : Ref sig .tc := ⟨.hbm, 86, rfl⟩
abbrev main_v22 : Ref sig .tc := ⟨.hbm, 87, rfl⟩
abbrev main_v23 : Ref sig .tc := ⟨.hbm, 88, rfl⟩
abbrev main_c_9 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩

abbrev nD : Nat := 1
abbrev τ : Topo := Topo.v7x

variable {F : FTy → Type} [FloatOps F]

class Facts₀ : Prop where
  bcast_S_S16x64x64x128 : S_.BroadcastsInDim S16x64x64x128 (![] : Fin 0 → Fin S16x64x64x128.rank)
  bcast_S16_S16x1x1x1_0 : S16.BroadcastsInDim S16x1x1x1 (![0] : Fin 1 → Fin S16x1x1x1.rank)
  bcast_S_S16x128x128x128 : S_.BroadcastsInDim S16x128x128x128 (![] : Fin 0 → Fin S16x128x128x128.rank)
  bcast_S_S16x1x1x1 : S_.BroadcastsInDim S16x1x1x1 (![] : Fin 0 → Fin S16x1x1x1.rank)
  bcast_S_S128 : S_.BroadcastsInDim S128 (![] : Fin 0 → Fin S128.rank)
  bcast_S16x1x1x1_S16x64x64x128_0_1_2_3 : S16x1x1x1.BroadcastsInDim S16x64x64x128 (![0, 1, 2, 3] : Fin 4 → Fin S16x64x64x128.rank)
  bcast_S128_S16x64x64x128_3 : S128.BroadcastsInDim S16x64x64x128 (![3] : Fin 1 → Fin S16x64x64x128.rank)
  bcast_S16x64x64x128_S16x64x64x128x1_0_1_2_3 : S16x64x64x128.BroadcastsInDim S16x64x64x128x1 (![0, 1, 2, 3] : Fin 4 → Fin S16x64x64x128x1.rank)
  concatenates_S16x64x64x128x1_S16x64x64x128x1_S16x64x64x128x1_S16x64x64x128x1_S16x64x64x128x4_d4 : Shape.Concatenates [S16x64x64x128x1, S16x64x64x128x1, S16x64x64x128x1, S16x64x64x128x1] S16x64x64x128x4 4
  scatter_S16x128x128x128_S16x64x64x128x4_S16x64x64x128_n_0123_0123_4_wf : ScatterDims.WF S16x128x128x128 S16x64x64x128x4 S16x64x64x128 [] [0, 1, 2, 3] [0, 1, 2, 3] 4

variable [Facts₀]

def scatter_S16x128x128x128_S16x64x64x128x4_S16x64x64x128_n_0123_0123_4 : ScatterDims S16x128x128x128 S16x64x64x128x4 S16x64x64x128 where
  updateWindowDims := []
  insertedWindowDims := [0, 1, 2, 3]
  scatterDimsToOperandDims := [0, 1, 2, 3]
  indexVectorDim := 4
  wf := scatter_S16x128x128x128_S16x64x64x128x4_S16x64x64x128_n_0123_0123_4_wf

class Facts : Prop extends Facts₀ where

variable [Facts]
-- ==== Proof.Spec.lean ====
/-
  Max-unpooling over 2×2 windows as ONE function of the two argument arrays, and the property of the index array under
  which a scatter-add by decoded positions computes it.

  The pooled array `x` has shape [16, 64, 64, 128] (batch, row, column, channel); the result has shape
  [16, 128, 128, 128]: row `r` and column `q` of the result belong to the 2×2 window of pooled pixel `(r / 2, q / 2)`.
  A word `k` of the index array encodes a position as `(row · 128 + column) · 128 + channel`, so its row is `k / 16384`
  and its column `(k / 128) % 128`; bit 14 of `k` is the row's parity and bit 7 the column's. The result at `(b, r, q, c)`
  is `x (b, r / 2, q / 2, c)` when the word there carries exactly the parities `(r % 2, q % 2)`, and zero otherwise.
-/
import Idealize.ShloMosaic.PureOps.Ideal
import Idealize.ShloMosaic.Lib.ValueIdx
import Idealize.ShloMosaic.Lib.Pipeline.Value

noncomputable section

namespace Cert.Unpool

open Idealize.ShloMosaic Idealize.ShloMosaic.ValueIdx

/-- The pooled arrays' shape. -/
abbrev SIn : Shape := ⟨4, ![16, 64, 64, 128]⟩
/-- The unpooled result's shape. -/
abbrev SOut : Shape := ⟨4, ![16, 128, 128, 128]⟩

/-- The pooled pixel whose 2×2 window holds result position `i`. -/
def src (i : SOut.Idx) : SIn.Idx :=
  ix4 (n0 := 16) (n1 := 64) (n2 := 64) (n3 := 128) (i 0)
    ⟨(i 1).val / 2, by have h : (i 1).val < 128 := (i 1).isLt; omega⟩
    ⟨(i 2).val / 2, by have h : (i 2).val < 128 := (i 2).isLt; omega⟩
    (i 3)

/-- The two decision bits a word must carry to select result position `i`: bit 14 the row's parity, bit 7 the column's. -/
def pat (i : SOut.Idx) : BitVec 32 := BitVec.ofNat 32 ((i 1).val % 2 * 16384 + (i 2).val % 2 * 128)

/-- Max-unpooling: each pooled value goes to the one cell of its window that its index word's two parity bits name; the
    other three cells are zero. -/
def unpool (x : FVec Ideal SIn .f32) (mk : IVec SIn 32) : FVec Ideal SOut .f32 :=
  fun i => if mk (src i) &&& 16512#32 = pat i then x (src i) else (0 : EReal)

/-- Every index word decodes to a position inside its own pixel's 2×2 window: the row `k / 16384` is `2h` or `2h + 1`
    (that is `32768 h ≤ k < 32768 h + 32768`) and the column `(k / 128) % 128` is `2w` or `2w + 1` (that is
    `256 w ≤ k % 16384 < 256 w + 256`), for the word at row `h` and column `w`. -/
def InWindow (mk : IVec SIn 32) : Prop :=
  ∀ j : SIn.Idx,
    32768 * (j 1).val ≤ (mk j).toNat ∧ (mk j).toNat < 32768 * (j 1).val + 32768
    ∧ 256 * (j 2).val ≤ (mk j).toNat % 16384 ∧ (mk j).toNat % 16384 < 256 * (j 2).val + 256

/-- The result position an index word decodes to, for the pooled entry `j`: its own batch and channel, the row
    `k / 16384` and the column `(k / 128) % 128` of its word `k` (the row reduced modulo 128 so that the position is
    defined for every word; inside the windows the row is below 128 already). -/
def dst (mk : IVec SIn 32) (j : SIn.Idx) : SOut.Idx :=
  ix4 (n0 := 16) (n1 := 128) (n2 := 128) (n3 := 128) (j 0)
    ⟨(mk j).toNat / 16384 % 128, Nat.mod_lt _ (by decide)⟩
    ⟨(mk j).toNat / 128 % 128, Nat.mod_lt _ (by decide)⟩
    (j 3)

/-! ## The same function over the kernel's five-axis layout

The kernel writes its result as [16, 64, 2, 64, 256]: axis 2 is the row's parity and the last axis is the column's
parity times 128 plus the channel; read in row-major order this is the result array. -/

/-- The five-axis layout of the result. -/
abbrev SMid : Shape := ⟨5, ![16, 64, 2, 64, 256]⟩

/-- The pooled pixel a five-axis position belongs to. -/
def srcMid (i : SMid.Idx) : SIn.Idx :=
  ix4 (n0 := 16) (n1 := 64) (n2 := 64) (n3 := 128) (i 0) (i 1) (i 3)
    ⟨(i 4).val % 128, Nat.mod_lt _ (by decide)⟩

/-- The two decision bits a word must carry to select a five-axis position: bit 14 its row parity (axis 2), bit 7 its
    column parity (the last axis divided by 128). -/
def patMid (i : SMid.Idx) : BitVec 32 := BitVec.ofNat 32 ((i 2).val * 16384 + (i 4).val / 128 * 128)

/-- Max-unpooling in the five-axis layout. -/
def unpoolMid (x : FVec Ideal SIn .f32) (mk : IVec SIn 32) : FVec Ideal SMid .f32 :=
  fun i => if mk (srcMid i) &&& 16512#32 = patMid i then x (srcMid i) else (0 : EReal)

/-- Read in row-major order, the five-axis array is the result array. -/
theorem shapeCast_unpoolMid (x : FVec Ideal SIn .f32) (mk : IVec SIn 32) (h : SMid.ShapeCasts SOut) :
    shapeCast SOut (unpoolMid x mk) h = unpool x mk := by
  funext i
  have h0 : (i 0).val < 16 := (i 0).isLt
  have h1 : (i 1).val < 128 := (i 1).isLt
  have h2 : (i 2).val < 128 := (i 2).isLt
  have h3 : (i 3).val < 128 := (i 3).isLt
  -- the five-axis position with the same row-major rank: the row splits into (row / 2, row % 2), the column's parity
  -- joins the channel on the last axis
  have hk : (SMid.rowMajor (ix5 (n0 := 16) (n1 := 64) (n2 := 2) (n3 := 64) (n4 := 256) ⟨(i 0).val, h0⟩
      ⟨(i 1).val / 2, by omega⟩ ⟨(i 1).val % 2, by omega⟩ ⟨(i 2).val / 2, by omega⟩
      ⟨(i 2).val % 2 * 128 + (i 3).val, by omega⟩)).val = (SOut.rowMajor i).val := by
    rw [Shape.rowMajor_val_five, Shape.rowMajor_val_four]
    show (((((i 0).val * 64 + (i 1).val / 2) * 2 + (i 1).val % 2) * 64 + (i 2).val / 2) * 256
        + ((i 2).val % 2 * 128 + (i 3).val)) = (((i 0).val * 128 + (i 1).val) * 128 + (i 2).val) * 128 + (i 3).val
    omega
  rw [shapeCast_apply (unpoolMid x mk) h i _ hk]
  have hs : srcMid (ix5 (n0 := 16) (n1 := 64) (n2 := 2) (n3 := 64) (n4 := 256) ⟨(i 0).val, h0⟩
      ⟨(i 1).val / 2, by omega⟩ ⟨(i 1).val % 2, by omega⟩ ⟨(i 2).val / 2, by omega⟩
      ⟨(i 2).val % 2 * 128 + (i 3).val, by omega⟩) = src i := by
    unfold srcMid src
    funext a
    match a with
    | ⟨0, _⟩ => exact Fin.ext rfl
    | ⟨1, _⟩ => exact Fin.ext rfl
    | ⟨2, _⟩ => exact Fin.ext rfl
    | ⟨3, _⟩ => exact Fin.ext (show ((i 2).val % 2 * 128 + (i 3).val) % 128 = (i 3).val by omega)
  have hp : patMid (ix5 (n0 := 16) (n1 := 64) (n2 := 2) (n3 := 64) (n4 := 256) ⟨(i 0).val, h0⟩
      ⟨(i 1).val / 2, by omega⟩ ⟨(i 1).val % 2, by omega⟩ ⟨(i 2).val / 2, by omega⟩
      ⟨(i 2).val % 2 * 128 + (i 3).val, by omega⟩) = pat i := by
    unfold patMid pat
    exact congrArg (BitVec.ofNat 32)
      (show (i 1).val % 2 * 16384 + ((i 2).val % 2 * 128 + (i 3).val) / 128 * 128
          = (i 1).val % 2 * 16384 + (i 2).val % 2 * 128 by omega)
  show (if mk (srcMid _) &&& 16512#32 = patMid _ then x (srcMid _) else (0 : EReal)) = _
  rw [hs, hp]
  rfl

end Cert.Unpool

end
-- ==== Proof.PreDecode.lean ====
/-
  The precondition read back: where the printed predicate is all ones, every index word lies in its own pixel's window.
-/
import proofs.«424529_j59047210385945_3_alg».proof.Pre_finite_inputs
import proofs.«424529_j59047210385945_3_alg».proof.Proof.Gen.Pre_finite_inputs
import proofs.«424529_j59047210385945_3_alg».proof.Proof.Spec
import Idealize.ShloMosaic.Lib.ReduceAll
import Idealize.ShloMosaic.Lib.Affine
import Idealize.ShloMosaic.Lib.StableHlo.Predicate

noncomputable section

namespace Cert.Unpool.PreDecode

open Idealize.ShloMosaic Cert.Pre_finite_inputs

open Idealize.ShloMosaic.StableHlo.Predicate in
/-- A small multiple of a small constant does not wrap: it reads as the natural product. -/
theorem toInt_scale (n c : ℕ) (hc : n * c < 2 ^ 31) :
    (BitVec.ofNat 32 n * BitVec.ofNat 32 c).toInt = ((n * c : ℕ) : ℤ) := by
  rw [← BitVec.ofNat_mul, toInt_ofNat_small _ hc]

open Idealize.ShloMosaic.StableHlo.Predicate in
/-- The same with the constant added once more. -/
theorem toInt_scale_add (n c : ℕ) (hc : n * c + c < 2 ^ 31) :
    (BitVec.ofNat 32 n * BitVec.ofNat 32 c + BitVec.ofNat 32 c).toInt = ((n * c + c : ℕ) : ℤ) := by
  rw [← BitVec.ofNat_mul, ← BitVec.ofNat_add, toInt_ofNat_small _ hc]

open Idealize.ShloMosaic.StableHlo.Predicate in
/-- The row window: a word that lies, read signed, between `32768 h` and `32768 h + 32768` for `h < 64` is
    nonnegative and lies there read unsigned. -/
theorem row_window (a : BitVec 32) (h : ℕ) (hh : h < 64)
    (h1 : (BitVec.ofNat 32 h * 32768#32).toInt ≤ a.toInt)
    (h2 : a.toInt < (BitVec.ofNat 32 h * 32768#32 + 32768#32).toInt) :
    2 * a.toNat < 2 ^ 32 ∧ 32768 * h ≤ a.toNat ∧ a.toNat < 32768 * h + 32768 := by
  rw [show (32768#32 : BitVec 32) = BitVec.ofNat 32 32768 from rfl] at h1 h2
  rw [toInt_scale h 32768 (by omega)] at h1
  rw [toInt_scale_add h 32768 (by omega)] at h2
  have hpos : 2 * a.toNat < 2 ^ 32 := BitVec.toInt_pos_iff.1 (by omega)
  have ha : a.toInt = a.toNat := toInt_eq_toNat_of_lt (by omega)
  rw [ha] at h1 h2
  refine ⟨hpos, ?_, ?_⟩ <;> omega

open Idealize.ShloMosaic.StableHlo.Predicate in
/-- The column window: for a nonnegative word, its remainder by 16384 read signed between `256 w` and `256 w + 256`
    for `w < 64` says the same of the natural remainder. -/
theorem col_window (a : BitVec 32) (w : ℕ) (hw : w < 64) (ha : 2 * a.toNat < 2 ^ 32)
    (h1 : (BitVec.ofNat 32 w * 256#32).toInt ≤ (IntOp.remsi .host a 16384#32).toInt)
    (h2 : (IntOp.remsi .host a 16384#32).toInt < (BitVec.ofNat 32 w * 256#32 + 256#32).toInt) :
    256 * w ≤ a.toNat % 16384 ∧ a.toNat % 16384 < 256 * w + 256 := by
  rw [show (256#32 : BitVec 32) = BitVec.ofNat 32 256 from rfl] at h1 h2
  rw [toInt_scale w 256 (by omega)] at h1
  rw [toInt_scale_add w 256 (by omega)] at h2
  have hr : (IntOp.remsi .host a 16384#32).toNat = a.toNat % 16384 :=
    IntOp.toNat_remsi .host ha 16384 (by decide) (by decide)
  have hlt : a.toNat % 16384 < 16384 := Nat.mod_lt _ (by decide)
  have hri : (IntOp.remsi .host a 16384#32).toInt = (a.toNat % 16384 : ℕ) := by
    rw [toInt_eq_toNat_of_lt (by omega), hr]
  rw [hri] at h1 h2
  constructor <;> omega

/-- If the precondition's predicate evaluates to one, then every index word `k` at row `h` and column `w` has
    `32768 h ≤ k < 32768 h + 32768` and `256 w ≤ k % 16384 < 256 w + 256`. -/
theorem inWindow_of_pre (x : FVec Ideal S16x64x64x128 .f32) (mk : IVec S16x64x64x128 32)
    (h : Cert.Pre_finite_inputs.fn (F := Ideal) x mk = fun _ => 1#1) : Cert.Unpool.InWindow mk := by
  have h0 := congrFun h ValueIdx.ix0
  dsimp only [Cert.Pre_finite_inputs.fn, Cert.Pre_finite_inputs.fn_part1] at h0
  have h1 := (IntOp.andi_eq_one.1 h0).2
  haveI : Subsingleton S_.Idx := ⟨fun a b => funext fun d => d.elim0⟩
  intro j
  have hj := Host.reduce_andi_all _ _ _ _ _ h1 j
  obtain ⟨h123, h4⟩ := IntOp.andi_eq_one.1 hj
  obtain ⟨h12, h3⟩ := IntOp.andi_eq_one.1 h123
  obtain ⟨ha, hb⟩ := IntOp.andi_eq_one.1 h12
  have hh : (j 1).val < 64 := (j 1).isLt
  have hw : (j 2).val < 64 := (j 2).isLt
  obtain ⟨hpos, r1, r2⟩ := row_window (mk j) (j 1).val hh (IntOp.cmpi_sge.1 ha) (IntOp.cmpi_slt.1 hb)
  obtain ⟨c1, c2⟩ := col_window (mk j) (j 2).val hw hpos (IntOp.cmpi_sge.1 h3) (IntOp.cmpi_slt.1 h4)
  exact ⟨r1, r2, c1, c2⟩

end Cert.Unpool.PreDecode

end
-- ==== Proof.RefTerm.lean ====
/-
  The reference's result as ONE term of its two argument arrays: the index array decoded into a row `k ⌊/⌋ 16384` and a
  column `(k ⌊/⌋ 128) mod 128` by floor division and the floor remainder (each the truncating operation with its sign
  correction), the batch and channel coordinates counted off, each of the four coordinate arrays wrapped once if
  negative, joined into one array of positions, and the pooled values added into a zero array at those positions.
-/
import proofs.«424529_j59047210385945_3_alg».proof.ReferenceIdeal

noncomputable section

namespace Cert.ReferenceIdeal.RefTerm

open Idealize.ShloMosaic Cert.ReferenceIdeal

variable {F : FTy → Type} [FloatOps F] [Facts]
open Facts₀

/-- A scalar spread over the pooled shape. -/
abbrev spread {α : Type} (k : S_.Idx → α) : S16x64x64x128.Idx → α :=
  broadcastInDim S16x64x64x128 ![] bcast_S_S16x64x64x128 k

/-- Floor division of every word by a scalar word: the truncated quotient, less one where the signs differ and the
    remainder is not zero. -/
def floorDiv (x : IVec S16x64x64x128 32) (k : IVec S_ 32) : IVec S16x64x64x128 32 :=
  select
    (andi (cmpi .ne (signi x) (spread (signi k)))
      (cmpi .ne (Host.remsi x (spread k)) (spread (constantI S_ 32 0#32))))
    (subi (Host.divsi x (spread k)) (spread (constantI S_ 32 1#32)))
    (Host.divsi x (spread k))

/-- The divisor the floor remainder really uses: `1` in place of `0`. -/
def safeDivisor (k : IVec S_ 32) : IVec S_ 32 :=
  select (cmpi .eq k (constantI S_ 32 0#32)) (constantI S_ 32 1#32) k

/-- The floor remainder of every word by a scalar word: the truncated remainder, plus the divisor where it is not zero
    and its sign differs from the divisor's. -/
def floorRem (x : IVec S16x64x64x128 32) (k : IVec S_ 32) : IVec S16x64x64x128 32 :=
  select
    (andi
      (cmpi .ne (cmpi .slt (Host.remsi x (spread (safeDivisor k))) (spread (constantI S_ 32 0#32)))
        (spread (cmpi .slt (safeDivisor k) (constantI S_ 32 0#32))))
      (cmpi .ne (Host.remsi x (spread (safeDivisor k))) (spread (constantI S_ 32 0#32))))
    (addi (Host.remsi x (spread (safeDivisor k))) (spread (safeDivisor k)))
    (Host.remsi x (spread (safeDivisor k)))

/-- A coordinate array with its negative entries wrapped once by the axis length `n`. -/
def wrap (v : IVec S16x64x64x128 32) (n : BitVec 32) : IVec S16x64x64x128 32 :=
  select (cmpi .slt v (spread (constantI S_ 32 0#32))) (addi v (spread (constantI S_ 32 n))) v

/-- The batch coordinate of every pooled entry (its own batch index, wrapped). -/
def batchCoord : IVec S16x64x64x128 32 :=
  broadcastInDim S16x64x64x128 ![0, 1, 2, 3] bcast_S16x1x1x1_S16x64x64x128_0_1_2_3
    (select
      (cmpi .slt (broadcastInDim S16x1x1x1 ![0] bcast_S16_S16x1x1x1_0 (iotaInDim S16 32 0))
        (broadcastInDim S16x1x1x1 ![] bcast_S_S16x1x1x1 (constantI S_ 32 0#32)))
      (addi (broadcastInDim S16x1x1x1 ![0] bcast_S16_S16x1x1x1_0 (iotaInDim S16 32 0))
        (broadcastInDim S16x1x1x1 ![] bcast_S_S16x1x1x1 (constantI S_ 32 16#32)))
      (broadcastInDim S16x1x1x1 ![0] bcast_S16_S16x1x1x1_0 (iotaInDim S16 32 0)))

/-- The channel coordinate of every pooled entry (its own channel index, wrapped). -/
def chanCoord : IVec S16x64x64x128 32 :=
  broadcastInDim S16x64x64x128 ![3] bcast_S128_S16x64x64x128_3
    (select
      (cmpi .slt (iotaInDim S128 32 0) (broadcastInDim S128 ![] bcast_S_S128 (constantI S_ 32 0#32)))
      (addi (iotaInDim S128 32 0) (broadcastInDim S128 ![] bcast_S_S128 (constantI S_ 32 128#32)))
      (iotaInDim S128 32 0))

/-- A coordinate array as a column of the position array. -/
abbrev column (v : IVec S16x64x64x128 32) : IVec S16x64x64x128x1 32 :=
  broadcastInDim S16x64x64x128x1 ![0, 1, 2, 3] bcast_S16x64x64x128_S16x64x64x128x1_0_1_2_3 v

/-- The decoded row of every index word, wrapped. -/
def rowCoord (mk : IVec S16x64x64x128 32) : IVec S16x64x64x128 32 :=
  wrap (floorDiv mk (constantI S_ 32 16384#32)) 128#32

/-- The decoded column of every index word, wrapped. -/
def colCoord (mk : IVec S16x64x64x128 32) : IVec S16x64x64x128 32 :=
  wrap (floorRem (floorDiv mk (constantI S_ 32 128#32)) (constantI S_ 32 128#32)) 128#32

/-- The position array: for every pooled entry its (batch, row, column, channel). -/
def positions (mk : IVec S16x64x64x128 32) : IVec S16x64x64x128x4 32 :=
  concatenate S16x64x64x128x4 4
    [⟨S16x64x64x128x1, column batchCoord⟩, ⟨S16x64x64x128x1, column (rowCoord mk)⟩,
      ⟨S16x64x64x128x1, column (colCoord mk)⟩, ⟨S16x64x64x128x1, column chanCoord⟩]
    concatenates_S16x64x64x128x1_S16x64x64x128x1_S16x64x64x128x1_S16x64x64x128x1_S16x64x64x128x4_d4

/-- The reference's result: the pooled values added into a zero array at their decoded positions. -/
def refOut (x : FVec F S16x64x64x128 .f32) (mk : IVec S16x64x64x128 32) : FVec F S16x128x128x128 .f32 :=
  Host.scatterAdd scatter_S16x128x128x128_S16x64x64x128x4_S16x64x64x128_n_0123_0123_4
    (broadcastInDim S16x128x128x128 ![] bcast_S_S16x128x128x128 (constant S_ .f32 0x00000000#32))
    (positions mk) x

end Cert.ReferenceIdeal.RefTerm

end
-- ==== Proof.RefRun.lean ====
/-
  The reference program run: it is a straight line of host operations (the three helper functions' bodies in place at
  their calls), so every execution ends with the result buffer at the composed term `refOut` of the two argument
  arrays, and the arguments unchanged.
-/
import proofs.«424529_j59047210385945_3_alg».proof.Proof.Gen.ReferenceIdeal
import proofs.«424529_j59047210385945_3_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in five runs -/

/-- The row divisor and the first floor division, its helper's seventeen operations over the first call's buffers. -/
abbrev seg0 : List (HloOp τ sig (Elt F)) :=
  [
    nullary main_c (constantI S_ 32 16384#32),
    TRef.unary (.of main_c) main_call0.v0 id,
    TRef.unary main_call0.v0 main_call0.v1 (broadcastInDim S16x64x64x128 ![] bcast_S_S16x64x64x128),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S16x64x64x128 ![] bcast_S_S16x64x64x128),
    TRef.binary main_call0.v3 main_call0.v5 main_call0.v6 (cmpi .ne),
    TRef.unary main_call0.v0 main_call0.v7 (broadcastInDim S16x64x64x128 ![] bcast_S_S16x64x64x128),
    TRef.binary (.of main_arg1) main_call0.v7 main_call0.v8 Host.remsi,
    TRef.nullary main_call0.c (constantI S_ 32 0#32),
    TRef.unary main_call0.c main_call0.v9 (broadcastInDim S16x64x64x128 ![] bcast_S_S16x64x64x128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16x64x64x128 ![] bcast_S_S16x64x64x128),
    TRef.binary main_call0.v2 main_call0.v12 main_call0.v13 subi,
    TRef.ternary main_call0.v11 main_call0.v13 main_call0.v2 main_call0.call0.v0 select ]

theorem seg0_sub : (seg0 : List (HloOp τ sig (Elt F))).Forall fun op => op.bufs ⊆ tcRefs τ sig :=
  ⟨
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..⟩

/-- The column divisor and the second floor division, over the second call's buffers. -/
abbrev seg1 : List (HloOp τ sig (Elt F)) :=
  [
    nullary main_c_0 (constantI S_ 32 128#32),
    TRef.unary (.of main_c_0) main_call1.v0 id,
    TRef.unary main_call1.v0 main_call1.v1 (broadcastInDim S16x64x64x128 ![] bcast_S_S16x64x64x128),
    TRef.binary (.of main_arg1) main_call1.v1 main_call1.v2 Host.divsi,
    TRef.unary (.of main_arg1) main_call1.v3 signi,
    TRef.unary main_call1.v0 main_call1.v4 signi,
    TRef.unary main_call1.v4 main_call1.v5 (broadcastInDim S16x64x64x128 ![] bcast_S_S16x64x64x128),
    TRef.binary main_call1.v3 main_call1.v5 main_call1.v6 (cmpi .ne),
    TRef.unary main_call1.v0 main_call1.v7 (broadcastInDim S16x64x64x128 ![] bcast_S_S16x64x64x128),
    TRef.binary (.of main_arg1) main_call1.v7 main_call1.v8 Host.remsi,
    TRef.nullary main_call1.c (constantI S_ 32 0#32),
    TRef.unary main_call1.c main_call1.v9 (broadcastInDim S16x64x64x128 ![] bcast_S_S16x64x64x128),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16x64x64x128 ![] bcast_S_S16x64x64x128),
    TRef.binary main_call1.v2 main_call1.v12 main_call1.v13 subi,
    TRef.ternary main_call1.v11 main_call1.v13 main_call1.v2 main_call1.call0.v0 select ]

theorem seg1_sub : (seg1 : List (HloOp τ sig (Elt F))).Forall fun op => op.bufs ⊆ tcRefs τ sig :=
  ⟨
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..⟩

/-- The modulus and the floor remainder, its helper's twenty-one operations over the third call's buffers. -/
abbrev seg2 : List (HloOp τ sig (Elt F)) :=
  [
    nullary main_c_1 (constantI S_ 32 128#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S16x64x64x128 ![] bcast_S_S16x64x64x128),
    TRef.binary (.of main_v1) main_call2.v3 main_call2.v4 Host.remsi,
    TRef.nullary main_call2.c_1 (constantI S_ 32 0#32),
    TRef.unary main_call2.c_1 main_call2.v5 (broadcastInDim S16x64x64x128 ![] bcast_S_S16x64x64x128),
    TRef.binary main_call2.v4 main_call2.v5 main_call2.v6 (cmpi .ne),
    TRef.nullary main_call2.c_2 (constantI S_ 32 0#32),
    TRef.unary main_call2.c_2 main_call2.v7 (broadcastInDim S16x64x64x128 ![] bcast_S_S16x64x64x128),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S16x64x64x128 ![] bcast_S_S16x64x64x128),
    TRef.binary main_call2.v8 main_call2.v10 main_call2.v11 (cmpi .ne),
    TRef.binary main_call2.v11 main_call2.v6 main_call2.v12 andi,
    TRef.unary main_call2.call0.v0 main_call2.v13 (broadcastInDim S16x64x64x128 ![] bcast_S_S16x64x64x128),
    TRef.binary main_call2.v4 main_call2.v13 main_call2.v14 addi,
    TRef.ternary main_call2.v12 main_call2.v14 main_call2.v4 main_call2.v15 select ]

theorem seg2_sub : (seg2 : List (HloOp τ sig (Elt F))).Forall fun op => op.bufs ⊆ tcRefs τ sig :=
  ⟨
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩

/-- The program's own next operations: the batch and channel coordinates counted off, the zero array, the four wraps, and each coordinate array as a column. -/
abbrev seg3 : List (HloOp τ sig (Elt F)) :=
  [
    nullary main_v3 (iotaInDim S16 32 0),
    unary main_v3 main_v4 (broadcastInDim S16x1x1x1 ![0] bcast_S16_S16x1x1x1_0 : (⟨S16, .i32⟩ : BufTy).Contents (Elt F) → (⟨S16x1x1x1, .i32⟩ : BufTy).Contents (Elt F)),
    nullary main_v5 (iotaInDim S128 32 0),
    nullary main_cst (constant S_ .f32 0x00000000#32),
    unary main_cst main_v6 (broadcastInDim S16x128x128x128 ![] bcast_S_S16x128x128x128 : (⟨S_, .f32⟩ : BufTy).Contents (Elt F) → (⟨S16x128x128x128, .f32⟩ : BufTy).Contents (Elt F)),
    nullary main_c_2 (constantI S_ 32 0#32),
    unary main_c_2 main_v7 (broadcastInDim S16x1x1x1 ![] bcast_S_S16x1x1x1 : (⟨S_, .i32⟩ : BufTy).Contents (Elt F) → (⟨S16x1x1x1, .i32⟩ : BufTy).Contents (Elt F)),
    binary main_v4 main_v7 main_v8 (cmpi .slt : (⟨S16x1x1x1, .i32⟩ : BufTy).Contents (Elt F) → (⟨S16x1x1x1, .i32⟩ : BufTy).Contents (Elt F) → (⟨S16x1x1x1, .i1⟩ : BufTy).Contents (Elt F)),
    nullary main_c_3 (constantI S_ 32 16#32),
    unary main_c_3 main_v9 (broadcastInDim S16x1x1x1 ![] bcast_S_S16x1x1x1 : (⟨S_, .i32⟩ : BufTy).Contents (Elt F) → (⟨S16x1x1x1, .i32⟩ : BufTy).Contents (Elt F)),
    binary main_v4 main_v9 main_v10 (addi : (⟨S16x1x1x1, .i32⟩ : BufTy).Contents (Elt F) → (⟨S16x1x1x1, .i32⟩ : BufTy).Contents (Elt F) → (⟨S16x1x1x1, .i32⟩ : BufTy).Contents (Elt F)),
    ternary main_v8 main_v10 main_v4 main_v11 (select : (⟨S16x1x1x1, .i1⟩ : BufTy).Contents (Elt F) → (⟨S16x1x1x1, .i32⟩ : BufTy).Contents (Elt F) → (⟨S16x1x1x1, .i32⟩ : BufTy).Contents (Elt F) → (⟨S16x1x1x1, .i32⟩ : BufTy).Contents (Elt F)),
    nullary main_c_4 (constantI S_ 32 0#32),
    unary main_c_4 main_v12 (broadcastInDim S16x64x64x128 ![] bcast_S_S16x64x64x128 : (⟨S_, .i32⟩ : BufTy).Contents (Elt F) → (⟨S16x64x64x128, .i32⟩ : BufTy).Contents (Elt F)),
    binary main_v0 main_v12 main_v13 (cmpi .slt : (⟨S16x64x64x128, .i32⟩ : BufTy).Contents (Elt F) → (⟨S16x64x64x128, .i32⟩ : BufTy).Contents (Elt F) → (⟨S16x64x64x128, .i1⟩ : BufTy).Contents (Elt F)),
    nullary main_c_5 (constantI S_ 32 128#32),
    unary main_c_5 main_v14 (broadcastInDim S16x64x64x128 ![] bcast_S_S16x64x64x128 : (⟨S_, .i32⟩ : BufTy).Contents (Elt F) → (⟨S16x64x64x128, .i32⟩ : BufTy).Contents (Elt F)),
    binary main_v0 main_v14 main_v15 (addi : (⟨S16x64x64x128, .i32⟩ : BufTy).Contents (Elt F) → (⟨S16x64x64x128, .i32⟩ : BufTy).Contents (Elt F) → (⟨S16x64x64x128, .i32⟩ : BufTy).Contents (Elt F)),
    ternary main_v13 main_v15 main_v0 main_v16 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    nullary main_c_6 (constantI S_ 32 0#32),
    unary main_c_6 main_v17 (broadcastInDim S16x64x64x128 ![] bcast_S_S16x64x64x128 : (⟨S_, .i32⟩ : BufTy).Contents (Elt F) → (⟨S16x64x64x128, .i32⟩ : BufTy).Contents (Elt F)),
    binary main_v2 main_v17 main_v18 (cmpi .slt : (⟨S16x64x64x128, .i32⟩ : BufTy).Contents (Elt F) → (⟨S16x64x64x128, .i32⟩ : BufTy).Contents (Elt F) → (⟨S16x64x64x128, .i1⟩ : BufTy).Contents (Elt F)),
    nullary main_c_7 (constantI S_ 32 128#32),
    unary main_c_7 main_v19 (broadcastInDim S16x64x64x128 ![] bcast_S_S16x64x64x128 : (⟨S_, .i32⟩ : BufTy).Contents (Elt F) → (⟨S16x64x64x128, .i32⟩ : BufTy).Contents (Elt F)),
    binary main_v2 main_v19 main_v20 (addi : (⟨S16x64x64x128, .i32⟩ : BufTy).Contents (Elt F) → (⟨S16x64x64x128, .i32⟩ : BufTy).Contents (Elt F) → (⟨S16x64x64x128, .i32⟩ : BufTy).Contents (Elt F)),
    ternary main_v18 main_v20 main_v2 main_v21 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    nullary main_c_8 (constantI S_ 32 0#32),
    unary main_c_8 main_v22 (broadcastInDim S128 ![] bcast_S_S128 : (⟨S_, .i32⟩ : BufTy).Contents (Elt F) → (⟨S128, .i32⟩ : BufTy).Contents (Elt F)),
    binary main_v5 main_v22 main_v23 (cmpi .slt : (⟨S128, .i32⟩ : BufTy).Contents (Elt F) → (⟨S128, .i32⟩ : BufTy).Contents (Elt F) → (⟨S128, .i1⟩ : BufTy).Contents (Elt F)),
    nullary main_c_9 (constantI S_ 32 128#32),
    unary main_c_9 main_v24 (broadcastInDim S128 ![] bcast_S_S128 : (⟨S_, .i32⟩ : BufTy).Contents (Elt F) → (⟨S128, .i32⟩ : BufTy).Contents (Elt F)),
    binary main_v5 main_v24 main_v25 (addi : (⟨S128, .i32⟩ : BufTy).Contents (Elt F) → (⟨S128, .i32⟩ : BufTy).Contents (Elt F) → (⟨S128, .i32⟩ : BufTy).Contents (Elt F)),
    ternary main_v23 main_v25 main_v5 main_v26 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v11 main_v27 (broadcastInDim S16x64x64x128 ![0, 1, 2, 3] bcast_S16x1x1x1_S16x64x64x128_0_1_2_3 : (⟨S16x1x1x1, .i32⟩ : BufTy).Contents (Elt F) → (⟨S16x64x64x128, .i32⟩ : BufTy).Contents (Elt F)),
    unary main_v26 main_v28 (broadcastInDim S16x64x64x128 ![3] bcast_S128_S16x64x64x128_3 : (⟨S128, .i32⟩ : BufTy).Contents (Elt F) → (⟨S16x64x64x128, .i32⟩ : BufTy).Contents (Elt F)),
    unary main_v27 main_v29 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    unary main_v16 main_v30 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    unary main_v21 main_v31 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    unary main_v28 main_v32 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)) ]

theorem seg3_sub : (seg3 : List (HloOp τ sig (Elt F))).Forall fun op => op.bufs ⊆ tcRefs τ sig :=
  ⟨
    nullary_bufs_sub .., unary_bufs_sub .., nullary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., unary_bufs_sub .., unary_bufs_sub ..⟩

/-- The position array joined from the four columns, and the scatter of the pooled values into the zero array. -/
abbrev seg4 : List (HloOp τ sig (Elt F)) :=
  [
    nary ![main_v29, main_v30, main_v31, main_v32] main_v33 (fun u => concatenate S16x64x64x128x4 4 [⟨S16x64x64x128x1, u 0⟩, ⟨S16x64x64x128x1, u 1⟩, ⟨S16x64x64x128x1, u 2⟩, ⟨S16x64x64x128x1, u 3⟩] concatenates_S16x64x64x128x1_S16x64x64x128x1_S16x64x64x128x1_S16x64x64x128x1_S16x64x64x128x4_d4),
    ternary main_v6 main_v33 main_arg0 main_v34 ((fun x i u => Host.scatterAdd scatter_S16x128x128x128_S16x64x64x128x4_S16x64x64x128_n_0123_0123_4 x i u) : (⟨S16x128x128x128, .f32⟩ : BufTy).Contents (Elt F) → (⟨S16x64x64x128x4, .i32⟩ : BufTy).Contents (Elt F) → (⟨S16x64x64x128, .f32⟩ : BufTy).Contents (Elt F) → (⟨S16x128x128x128, .f32⟩ : BufTy).Contents (Elt F)) ]

theorem seg4_sub : (seg4 : List (HloOp τ sig (Elt F))).Forall fun op => op.bufs ⊆ tcRefs τ sig :=
  ⟨
    nary_bufs_sub .., ternary_bufs_sub ..⟩

/-- The program's ninety-nine operations in order, each helper function's body written out at its call over that
    call's own buffers. -/
abbrev ops : List (HloOp τ sig (Elt F)) := seg0 ++ (seg1 ++ (seg2 ++ (seg3 ++ seg4)))

set_option maxRecDepth 8192 in
/-- The program is that straight line: with the functions' definitions unfolded at their calls, both sides are the
    same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation touches buffers of the device only. -/
theorem ops_sub : (ops : List (HloOp τ sig (Elt F))).Forall fun op => op.bufs ⊆ tcRefs τ sig :=
  forall_append seg0_sub (forall_append seg1_sub (forall_append seg2_sub (forall_append seg3_sub seg4_sub)))

/-- The contents after two runs one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each run leaves -/

theorem seg0_v0 (V : Valuation τ sig (Elt F)) :
    after seg0 V (main_v0 : DevRef τ sig)
      = RefTerm.floorDiv (V (main_arg1 : DevRef τ sig)) (constantI S_ 32 16384#32) := by
  after_results
  rfl

theorem seg0_arg0 (V : Valuation τ sig (Elt F)) :
    after seg0 V (main_arg0 : DevRef τ sig) = V (main_arg0 : DevRef τ sig) := by
  after_results

theorem seg0_arg1 (V : Valuation τ sig (Elt F)) :
    after seg0 V (main_arg1 : DevRef τ sig) = V (main_arg1 : DevRef τ sig) := by
  after_results

theorem seg1_v1 (V : Valuation τ sig (Elt F)) :
    after seg1 V (main_v1 : DevRef τ sig)
      = RefTerm.floorDiv (V (main_arg1 : DevRef τ sig)) (constantI S_ 32 128#32) := by
  after_results_simp
  rfl

theorem seg1_v0 (V : Valuation τ sig (Elt F)) :
    after seg1 V (main_v0 : DevRef τ sig) = V (main_v0 : DevRef τ sig) := by
  after_results_simp

theorem seg1_arg0 (V : Valuation τ sig (Elt F)) :
    after seg1 V (main_arg0 : DevRef τ sig) = V (main_arg0 : DevRef τ sig) := by
  after_results_simp

theorem seg1_arg1 (V : Valuation τ sig (Elt F)) :
    after seg1 V (main_arg1 : DevRef τ sig) = V (main_arg1 : DevRef τ sig) := by
  after_results_simp

theorem seg2_v2 (V : Valuation τ sig (Elt F)) :
    after seg2 V (main_v2 : DevRef τ sig)
      = RefTerm.floorRem (V (main_v1 : DevRef τ sig)) (constantI S_ 32 128#32) := by
  after_results_simp
  rfl

theorem seg2_v0 (V : Valuation τ sig (Elt F)) :
    after seg2 V (main_v0 : DevRef τ sig) = V (main_v0 : DevRef τ sig) := by
  after_results_simp

theorem seg2_arg0 (V : Valuation τ sig (Elt F)) :
    after seg2 V (main_arg0 : DevRef τ sig) = V (main_arg0 : DevRef τ sig) := by
  after_results_simp

theorem seg2_arg1 (V : Valuation τ sig (Elt F)) :
    after seg2 V (main_arg1 : DevRef τ sig) = V (main_arg1 : DevRef τ sig) := by
  after_results_simp

theorem seg3_v6 (V : Valuation τ sig (Elt F)) :
    after seg3 V (main_v6 : DevRef τ sig)
      = broadcastInDim S16x128x128x128 ![] bcast_S_S16x128x128x128 (constant S_ .f32 0x00000000#32) := by
  after_results_simp

theorem seg3_v29 (V : Valuation τ sig (Elt F)) :
    after seg3 V (main_v29 : DevRef τ sig) = RefTerm.column RefTerm.batchCoord := by
  after_results_simp
  rfl

theorem seg3_v30 (V : Valuation τ sig (Elt F)) :
    after seg3 V (main_v30 : DevRef τ sig) = RefTerm.column (RefTerm.wrap (V (main_v0 : DevRef τ sig)) 128#32) := by
  after_results_simp
  rfl

theorem seg3_v31 (V : Valuation τ sig (Elt F)) :
    after seg3 V (main_v31 : DevRef τ sig) = RefTerm.column (RefTerm.wrap (V (main_v2 : DevRef τ sig)) 128#32) := by
  after_results_simp
  rfl

theorem seg3_v32 (V : Valuation τ sig (Elt F)) :
    after seg3 V (main_v32 : DevRef τ sig) = RefTerm.column RefTerm.chanCoord := by
  after_results_simp
  rfl

theorem seg3_arg0 (V : Valuation τ sig (Elt F)) :
    after seg3 V (main_arg0 : DevRef τ sig) = V (main_arg0 : DevRef τ sig) := by
  after_results_simp

theorem seg3_arg1 (V : Valuation τ sig (Elt F)) :
    after seg3 V (main_arg1 : DevRef τ sig) = V (main_arg1 : DevRef τ sig) := by
  after_results_simp

theorem seg4_v34 (V : Valuation τ sig (Elt F)) :
    after seg4 V (main_v34 : DevRef τ sig)
      = Host.scatterAdd scatter_S16x128x128x128_S16x64x64x128x4_S16x64x64x128_n_0123_0123_4 (V (main_v6 : DevRef τ sig))
          (concatenate S16x64x64x128x4 4
            [⟨S16x64x64x128x1, V (main_v29 : DevRef τ sig)⟩, ⟨S16x64x64x128x1, V (main_v30 : DevRef τ sig)⟩,
              ⟨S16x64x64x128x1, V (main_v31 : DevRef τ sig)⟩, ⟨S16x64x64x128x1, V (main_v32 : DevRef τ sig)⟩]
            concatenates_S16x64x64x128x1_S16x64x64x128x1_S16x64x64x128x1_S16x64x64x128x1_S16x64x64x128x4_d4)
          (V (main_arg0 : DevRef τ sig)) := by
  after_results
  rfl

theorem seg4_arg0 (V : Valuation τ sig (Elt F)) :
    after seg4 V (main_arg0 : DevRef τ sig) = V (main_arg0 : DevRef τ sig) := by
  after_results_simp

theorem seg4_arg1 (V : Valuation τ sig (Elt F)) :
    after seg4 V (main_arg1 : DevRef τ sig) = V (main_arg1 : DevRef τ sig) := by
  after_results_simp

/-! ## The whole line -/

/-- The result buffer after the whole line is the composed term of the two argument arrays. -/
theorem out_eq (V : Valuation τ sig (Elt F)) :
    after ops V (main_v34 : DevRef τ sig)
      = RefTerm.refOut (V (main_arg0 : DevRef τ sig)) (V (main_arg1 : DevRef τ sig)) := by
  simp only [ops, after_append]
  rw [seg4_v34, seg3_v6, seg3_v29, seg3_v30, seg3_v31, seg3_v32, seg3_arg0, seg2_arg0, seg1_arg0, seg0_arg0, seg2_v0,
    seg1_v0, seg0_v0, seg2_v2, seg1_v1, seg0_arg1]
  rfl

theorem arg0_eq (V : Valuation τ sig (Elt F)) :
    after ops V (main_arg0 : DevRef τ sig) = V (main_arg0 : DevRef τ sig) := by
  simp only [ops, after_append]
  rw [seg4_arg0, seg3_arg0, seg2_arg0, seg1_arg0, seg0_arg0]

theorem arg1_eq (V : Valuation τ sig (Elt F)) :
    after ops V (main_arg1 : DevRef τ sig) = V (main_arg1 : DevRef τ sig) := by
  simp only [ops, after_append]
  rw [seg4_arg1, seg3_arg1, seg2_arg1, seg1_arg1, seg0_arg1]

/-- Every weakly fair execution of the reference terminates with the result at `refOut` of the argument arrays and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = RefTerm.refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v34).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Words.lean ====
/-
  Word arithmetic behind the decoding of an index word: floor division and the floor remainder of a nonnegative 32-bit
  word by a positive constant are the natural quotient and remainder; a nonnegative coordinate is not wrapped; and the
  two bits kept by the mask `16512 = 2^14 + 2^7` are the parities of `k / 16384` and `k / 128`.
-/
import Idealize.ShloMosaic.PureOps.Ideal
import Idealize.ShloMosaic.Lib.Affine
import Idealize.ShloMosaic.Lib.StableHlo.Predicate
import Mathlib.Data.Nat.Bitwise

noncomputable section

namespace Cert.Unpool.Words

open Idealize.ShloMosaic

/-- The sign of a word: `0`, `-1` or `1`. -/
def sgnW (a : BitVec 32) : BitVec 32 := if a = 0 then 0 else if a.msb then -1 else 1

/-- Floor division of one word by another: the truncated quotient, less one where the signs differ and the remainder is
    not zero. -/
def fdW (a k : BitVec 32) : BitVec 32 :=
  Scalar.select
    (IntOp.andi (IntOp.cmpi .ne (sgnW a) (sgnW k)) (IntOp.cmpi .ne (IntOp.remsi .host a k) 0#32))
    (IntOp.subi (IntOp.divsi .host a k) 1#32)
    (IntOp.divsi .host a k)

/-- The divisor the floor remainder uses: `1` in place of `0`. -/
def sdW (k : BitVec 32) : BitVec 32 := Scalar.select (IntOp.cmpi .eq k 0#32) 1#32 k

/-- The floor remainder of one word by another. -/
def frW (a k : BitVec 32) : BitVec 32 :=
  Scalar.select
    (IntOp.andi
      (IntOp.cmpi .ne (IntOp.cmpi .slt (IntOp.remsi .host a (sdW k)) 0#32) (IntOp.cmpi .slt (sdW k) 0#32))
      (IntOp.cmpi .ne (IntOp.remsi .host a (sdW k)) 0#32))
    (IntOp.addi (IntOp.remsi .host a (sdW k)) (sdW k))
    (IntOp.remsi .host a (sdW k))

/-- A coordinate wrapped once by the axis length `n` if negative. -/
def wrapW (v n : BitVec 32) : BitVec 32 := Scalar.select (IntOp.cmpi .slt v 0#32) (IntOp.addi v n) v

/-- A natural number below `2^31` is the unsigned reading of its word. -/
private theorem toNat_ofNat_lt (k : Nat) (hk' : k < 2 ^ 31) : (BitVec.ofNat 32 k).toNat = k := by
  rw [BitVec.toNat_ofNat]; omega

/-- The word of a positive number below `2^31` is not the zero word. -/
private theorem ofNat_ne_zero (k : Nat) (hk : 0 < k) (hk' : k < 2 ^ 31) : BitVec.ofNat 32 k ≠ 0 := by
  intro h
  have h' := congrArg BitVec.toNat h
  rw [toNat_ofNat_lt k hk'] at h'
  have h0 : (0 : BitVec 32).toNat = 0 := rfl
  omega

/-- The word of a positive number below `2^31` reads positive when signed. -/
private theorem toInt_ofNat_pos (k : Nat) (hk : 0 < k) (hk' : k < 2 ^ 31) : 0 < (BitVec.ofNat 32 k).toInt := by
  rw [StableHlo.Predicate.toInt_ofNat_small k hk']; exact_mod_cast hk

/-- A nonnegative word does not test negative. -/
private theorem cmpi_slt_zero (v : BitVec 32) (hv : v.toNat < 2 ^ 31) : IntOp.cmpi .slt v 0#32 = 0#1 := by
  have h : ¬ (IntOp.cmpi .slt v 0#32 = 1#1) := by
    rw [IntOp.cmpi_slt, StableHlo.Predicate.toInt_eq_toNat_of_lt hv, show (0#32 : BitVec 32).toInt = 0 from by decide]
    omega
  revert h
  generalize IntOp.cmpi .slt v 0#32 = c
  revert c
  decide

/-- Truncating division of a nonnegative word by a positive constant is the natural quotient. -/
private theorem toNat_divsi (a : BitVec 32) (k : Nat) (ha : a.toNat < 2 ^ 31) (hk : 0 < k) (hk' : k < 2 ^ 31) :
    (IntOp.divsi .host a (BitVec.ofNat 32 k)).toNat = a.toNat / k := by
  have hc : ¬ IntOp.SDivCorner a (BitVec.ofNat 32 k) := IntOp.not_corner_of_pos (toInt_ofNat_pos k hk hk')
  have hm : a.msb = false := BitVec.msb_eq_false_iff_two_mul_lt.mpr (by omega)
  have hkm : (BitVec.ofNat 32 k).msb = false :=
    BitVec.msb_eq_false_iff_two_mul_lt.mpr (by rw [toNat_ofNat_lt k hk']; omega)
  simp only [IntOp.divsi, if_neg hc, BitVec.sdiv_eq, hm, hkm, BitVec.udiv_eq, BitVec.toNat_udiv, toNat_ofNat_lt k hk']

/-- The sign of a positive constant is `1`. -/
private theorem sgnW_ofNat (k : Nat) (hk : 0 < k) (hk' : k < 2 ^ 31) : sgnW (BitVec.ofNat 32 k) = 1 := by
  have hkm : (BitVec.ofNat 32 k).msb = false :=
    BitVec.msb_eq_false_iff_two_mul_lt.mpr (by rw [toNat_ofNat_lt k hk']; omega)
  unfold sgnW
  rw [if_neg (ofNat_ne_zero k hk hk'), hkm]
  rfl

/-- The sign of a nonnegative word that is not zero is `1`. -/
private theorem sgnW_of_pos (a : BitVec 32) (ha : a.toNat < 2 ^ 31) (ha0 : a ≠ 0) : sgnW a = 1 := by
  have hm : a.msb = false := BitVec.msb_eq_false_iff_two_mul_lt.mpr (by omega)
  unfold sgnW
  rw [if_neg ha0, hm]
  rfl

/-- The mask `2^14 + 2^7` on natural numbers. -/
private theorem and_mask (n : Nat) : n &&& 16512 = n / 16384 % 2 * 16384 + n / 128 % 2 * 128 := by
  have h : (16512 : Nat) = 2 ^ 14 ||| 2 ^ 7 := by decide
  have e14 : (2 : Nat) ^ 14 = 16384 := by decide
  have e7 : (2 : Nat) ^ 7 = 128 := by decide
  rw [h, Nat.and_or_distrib_left, Nat.and_two_pow, Nat.and_two_pow, Nat.toNat_testBit, Nat.toNat_testBit, e14, e7]
  have h14 := Nat.mod_two_eq_zero_or_one (n / 16384)
  have h7 := Nat.mod_two_eq_zero_or_one (n / 128)
  rcases h14 with h14 | h14 <;> rcases h7 with h7 | h7 <;> rw [h14, h7] <;> rfl

/-- Floor division of a nonnegative word by a positive constant is the natural quotient. -/
theorem fdW_toNat (a : BitVec 32) (k : Nat) (ha : a.toNat < 2 ^ 31) (hk : 0 < k) (hk' : k < 2 ^ 31) :
    (fdW a (BitVec.ofNat 32 k)).toNat = a.toNat / k := by
  have hcond : ¬ (IntOp.andi (IntOp.cmpi .ne (sgnW a) (sgnW (BitVec.ofNat 32 k)))
      (IntOp.cmpi .ne (IntOp.remsi .host a (BitVec.ofNat 32 k)) 0#32) = 1#1) := by
    rw [IntOp.andi_eq_one, IntOp.cmpi_ne, IntOp.cmpi_ne]
    rintro ⟨hs, hr⟩
    by_cases ha0 : a = 0
    · apply hr
      rw [IntOp.remsi_eq_zero_iff .host (by omega) k hk (by omega), ha0]
      exact Nat.dvd_zero k
    · apply hs
      rw [sgnW_ofNat k hk hk', sgnW_of_pos a ha ha0]
  have hsel : fdW a (BitVec.ofNat 32 k) = IntOp.divsi .host a (BitVec.ofNat 32 k) := if_neg hcond
  rw [hsel]
  exact toNat_divsi a k ha hk hk'

/-- The floor remainder of a nonnegative word by a positive constant is the natural remainder. -/
theorem frW_toNat (a : BitVec 32) (k : Nat) (ha : a.toNat < 2 ^ 31) (hk : 0 < k) (hk' : k < 2 ^ 31) :
    (frW a (BitVec.ofNat 32 k)).toNat = a.toNat % k := by
  have hkN := toNat_ofNat_lt k hk'
  have hsd : sdW (BitVec.ofNat 32 k) = BitVec.ofNat 32 k :=
    if_neg (fun h => ofNat_ne_zero k hk hk' (IntOp.cmpi_eq.mp h))
  have hr := IntOp.toNat_remsi .host (x := a) (by omega) k hk (by omega)
  have hrlt : (IntOp.remsi .host a (BitVec.ofNat 32 k)).toNat < 2 ^ 31 := by
    rw [hr]
    have := Nat.mod_lt a.toNat hk
    omega
  unfold frW Scalar.select
  rw [hsd, cmpi_slt_zero _ hrlt, cmpi_slt_zero _ (by rw [hkN]; exact hk'), if_neg]
  · exact hr
  · intro h
    exact IntOp.cmpi_ne.mp (IntOp.andi_eq_one.mp h).1 rfl

/-- A nonnegative coordinate is not wrapped. -/
theorem wrapW_of_nonneg (v n : BitVec 32) (hv : v.toNat < 2 ^ 31) : wrapW v n = v := by
  unfold wrapW Scalar.select
  rw [cmpi_slt_zero v hv]
  exact if_neg (by decide)

/-- A nonnegative word reads the same signed and unsigned. -/
theorem toInt_of_nonneg (v : BitVec 32) (hv : v.toNat < 2 ^ 31) : v.toInt = (v.toNat : Int) := by
  exact StableHlo.Predicate.toInt_eq_toNat_of_lt hv

/-- The mask `2^14 + 2^7` keeps exactly the parities of `k / 16384` and `k / 128`. -/
theorem and_parity (a : BitVec 32) (p q : Nat) (hp : p < 2) (hq : q < 2) :
    a &&& 16512#32 = BitVec.ofNat 32 (p * 16384 + q * 128) ↔ a.toNat / 16384 % 2 = p ∧ a.toNat / 128 % 2 = q := by
  have h16 : (16512#32 : BitVec 32).toNat = 16512 := rfl
  have hp2 := Nat.mod_two_eq_zero_or_one (a.toNat / 16384)
  have hq2 := Nat.mod_two_eq_zero_or_one (a.toNat / 128)
  rw [← BitVec.toNat_inj, BitVec.toNat_and, h16, BitVec.toNat_ofNat, and_mask]
  omega

end Cert.Unpool.Words

end
-- ==== Proof.RefIndex.lean ====
/-
  The reference's position array read at one pooled entry: inside the windows the scatter sends entry `j` to the result
  position `dst j` — its own batch and channel, the row `k / 16384` and the column `(k / 128) % 128` of its word `k` —
  and that position is inside the result array, so the entry is not dropped.
-/
import proofs.«424529_j59047210385945_3_alg».proof.Proof.Gen.ReferenceIdeal
import proofs.«424529_j59047210385945_3_alg».proof.Proof.RefTerm
import proofs.«424529_j59047210385945_3_alg».proof.Proof.Spec
import proofs.«424529_j59047210385945_3_alg».proof.Proof.Words
import Idealize.ShloMosaic.Lib.ValueIdx
import Idealize.ShloMosaic.Lib.Pipeline.Value

noncomputable section

namespace Cert.ReferenceIdeal.RefIndex

open Cert.ReferenceIdeal Cert.ReferenceIdeal.Gen Idealize.ShloMosaic Idealize.ShloMosaic.ValueIdx

/-- The scatter's dimension numbers: every result axis is an inserted window axis, position component `a` names
    result axis `a`, and the components lie along the position array's last axis. -/
abbrev D := scatter_S16x128x128x128_S16x64x64x128x4_S16x64x64x128_n_0123_0123_4

/-- No result axis carries a window coordinate. -/
theorem window_zero (j : S16x64x64x128.Idx) (a : Fin 4) : D.window j a = 0 := by
  unfold ScatterDims.window
  rw [dif_neg]
  revert a; decide

/-- The start on result axis `a` is component `a` of entry `j`'s position vector, read signed. -/
theorem start_eq {w : Nat} (j : S16x64x64x128.Idx) (idx : IVec S16x64x64x128x4 w) (a : Fin 4) :
    D.start j idx a
      = (idx (ix5 (n0 := 16) (n1 := 64) (n2 := 64) (n3 := 128) (n4 := 4) (j 0) (j 1) (j 2) (j 3) a)).toInt := by
  unfold ScatterDims.start
  have hm : a ∈ D.scatterDimsToOperandDims := by revert a; decide
  rw [dif_pos hm]
  congr 2
  funext b
  refine Fin.ext ?_
  match a, b with
  | ⟨0, _⟩, ⟨0, _⟩ => rfl
  | ⟨0, _⟩, ⟨1, _⟩ => rfl
  | ⟨0, _⟩, ⟨2, _⟩ => rfl
  | ⟨0, _⟩, ⟨3, _⟩ => rfl
  | ⟨0, _⟩, ⟨4, _⟩ => rfl
  | ⟨1, _⟩, ⟨0, _⟩ => rfl
  | ⟨1, _⟩, ⟨1, _⟩ => rfl
  | ⟨1, _⟩, ⟨2, _⟩ => rfl
  | ⟨1, _⟩, ⟨3, _⟩ => rfl
  | ⟨1, _⟩, ⟨4, _⟩ => rfl
  | ⟨2, _⟩, ⟨0, _⟩ => rfl
  | ⟨2, _⟩, ⟨1, _⟩ => rfl
  | ⟨2, _⟩, ⟨2, _⟩ => rfl
  | ⟨2, _⟩, ⟨3, _⟩ => rfl
  | ⟨2, _⟩, ⟨4, _⟩ => rfl
  | ⟨3, _⟩, ⟨0, _⟩ => rfl
  | ⟨3, _⟩, ⟨1, _⟩ => rfl
  | ⟨3, _⟩, ⟨2, _⟩ => rfl
  | ⟨3, _⟩, ⟨3, _⟩ => rfl
  | ⟨3, _⟩, ⟨4, _⟩ => rfl

/-- A coordinate array as a column, read at an entry: the array at that entry. -/
theorem column_at (v : IVec S16x64x64x128 32) (j : S16x64x64x128.Idx) (e : Fin 1) :
    RefTerm.column v (ix5 (n0 := 16) (n1 := 64) (n2 := 64) (n3 := 128) (n4 := 1) (j 0) (j 1) (j 2) (j 3) e) = v j := by
  show v _ = v j
  congr 1
  funext a
  refine Fin.ext ?_
  match a with
  | ⟨0, _⟩ => rfl
  | ⟨1, _⟩ => rfl
  | ⟨2, _⟩ => rfl
  | ⟨3, _⟩ => rfl

/-- The four coordinate arrays, in the order the position array lists them. -/
def coords (mk : IVec S16x64x64x128 32) : Fin 4 → IVec S16x64x64x128 32 :=
  ![RefTerm.batchCoord, RefTerm.rowCoord mk, RefTerm.colCoord mk, RefTerm.chanCoord]

/-- The position array is the four columns laid side by side. -/
theorem positions_eq (mk : IVec S16x64x64x128 32) :
    RefTerm.positions mk = concatenate S16x64x64x128x4 4
      (List.ofFn fun n : Fin 4 => (⟨S16x64x64x128x1, RefTerm.column (coords mk n)⟩ : (s : Shape) × (s.Idx → BitVec 32)))
      concatenates_S16x64x64x128x1_S16x64x64x128x1_S16x64x64x128x1_S16x64x64x128x1_S16x64x64x128x4_d4 := rfl

/-- Component `n` of entry `j`'s position vector is coordinate array `n` at `j`. -/
theorem positions_at (mk : IVec S16x64x64x128 32) (j : S16x64x64x128.Idx) (n : Fin 4) :
    RefTerm.positions mk (ix5 (n0 := 16) (n1 := 64) (n2 := 64) (n3 := 128) (n4 := 4) (j 0) (j 1) (j 2) (j 3) n)
      = coords mk n j := by
  rw [positions_eq, ← column_at (coords mk n) j 0]
  refine concatenate_ofFn_unit_apply (t := S16x64x64x128x4) (s₁ := S16x64x64x128x1) 4
    (fun n : Fin 4 => RefTerm.column (coords mk n)) _ rfl rfl _ n rfl _ ?_
  intro b hb
  match b with
  | ⟨0, _⟩ => rfl
  | ⟨1, _⟩ => rfl
  | ⟨2, _⟩ => rfl
  | ⟨3, _⟩ => rfl
  | ⟨4, _⟩ => exact absurd rfl hb

open Cert.Unpool in
/-- The batch coordinate of an entry is its own batch index, wrapped. -/
theorem batchCoord_at (j : S16x64x64x128.Idx) :
    RefTerm.batchCoord j = Words.wrapW (BitVec.ofNat 32 (j 0).val) 16#32 := rfl

open Cert.Unpool in
/-- The channel coordinate of an entry is its own channel index, wrapped. -/
theorem chanCoord_at (j : S16x64x64x128.Idx) :
    RefTerm.chanCoord j = Words.wrapW (BitVec.ofNat 32 (j 3).val) 128#32 := rfl

open Cert.Unpool in
/-- The row coordinate of an entry is the floor quotient of its word by `16384`, wrapped. -/
theorem rowCoord_at (mk : IVec S16x64x64x128 32) (j : S16x64x64x128.Idx) :
    RefTerm.rowCoord mk j = Words.wrapW (Words.fdW (mk j) 16384#32) 128#32 := rfl

open Cert.Unpool in
/-- The column coordinate of an entry is the floor remainder by `128` of the floor quotient of its word by `128`,
    wrapped. -/
theorem colCoord_at (mk : IVec S16x64x64x128 32) (j : S16x64x64x128.Idx) :
    RefTerm.colCoord mk j = Words.wrapW (Words.frW (Words.fdW (mk j) 128#32) 128#32) 128#32 := rfl

open Cert.Unpool in
/-- A nonnegative coordinate, wrapped and read signed, is its natural value. -/
theorem toInt_wrapW (v n : BitVec 32) (hv : v.toNat < 2 ^ 31) : (Words.wrapW v n).toInt = (v.toNat : Int) := by
  rw [Words.wrapW_of_nonneg v n hv, Words.toInt_of_nonneg v hv]

open Cert.Unpool in
/-- Inside the windows, start plus window coordinate on result axis `a` is coordinate `a` of `dst j`. -/
theorem start_window (mk : IVec S16x64x64x128 32) (hw : Cert.Unpool.InWindow mk) (j : S16x64x64x128.Idx) (a : Fin 4) :
    D.start j (RefTerm.positions mk) a + (D.window j a : Int) = ((Cert.Unpool.dst mk j a).val : Int) := by
  rw [window_zero, start_eq, positions_at]
  simp only [Nat.cast_zero, add_zero]
  obtain ⟨h1, h2, h3, h4⟩ := hw j
  have hj0 : (j 0).val < 16 := (j 0).isLt
  have hj1 : (j 1).val < 64 := (j 1).isLt
  have hj3 : (j 3).val < 128 := (j 3).isLt
  have hn : (mk j).toNat < 2 ^ 31 := by omega
  match a with
  | ⟨0, _⟩ =>
    show (RefTerm.batchCoord j).toInt = (((j 0).val : Nat) : Int)
    have e : (BitVec.ofNat 32 (j 0).val).toNat = (j 0).val := by
      rw [BitVec.toNat_ofNat]; exact Nat.mod_eq_of_lt (by omega)
    rw [batchCoord_at, toInt_wrapW _ _ (by rw [e]; omega), e]
  | ⟨1, _⟩ =>
    show (RefTerm.rowCoord mk j).toInt = (((mk j).toNat / 16384 % 128 : Nat) : Int)
    have e : (Words.fdW (mk j) 16384#32).toNat = (mk j).toNat / 16384 :=
      Words.fdW_toNat (mk j) 16384 hn (by decide) (by decide)
    rw [rowCoord_at, toInt_wrapW _ _ (by rw [e]; omega), e, Nat.mod_eq_of_lt (by omega)]
  | ⟨2, _⟩ =>
    show (RefTerm.colCoord mk j).toInt = (((mk j).toNat / 128 % 128 : Nat) : Int)
    have e : (Words.fdW (mk j) 128#32).toNat = (mk j).toNat / 128 :=
      Words.fdW_toNat (mk j) 128 hn (by decide) (by decide)
    have e' : (Words.frW (Words.fdW (mk j) 128#32) 128#32).toNat = (mk j).toNat / 128 % 128 := by
      rw [Words.frW_toNat _ 128 (by rw [e]; omega) (by decide) (by decide), e]
    rw [colCoord_at, toInt_wrapW _ _ (by rw [e']; omega), e']
  | ⟨3, _⟩ =>
    show (RefTerm.chanCoord j).toInt = (((j 3).val : Nat) : Int)
    have e : (BitVec.ofNat 32 (j 3).val).toNat = (j 3).val := by
      rw [BitVec.toNat_ofNat]; exact Nat.mod_eq_of_lt (by omega)
    rw [chanCoord_at, toInt_wrapW _ _ (by rw [e]; omega), e]

/-- Inside the windows the scatter's result position of pooled entry `j` is `dst j`. -/
theorem resultIdx_positions (mk : IVec S16x64x64x128 32) (hw : Cert.Unpool.InWindow mk) (j : S16x64x64x128.Idx) :
    scatter_S16x128x128x128_S16x64x64x128x4_S16x64x64x128_n_0123_0123_4.resultIdx? j (RefTerm.positions mk)
      = some (Cert.Unpool.dst mk j) := by
  have hst := start_window mk hw j
  have h : ∀ a : Fin 4, 0 ≤ D.start j (RefTerm.positions mk) a + (D.window j a : Int)
      ∧ D.start j (RefTerm.positions mk) a + (D.window j a : Int) < S16x128x128x128.size a := by
    intro a
    rw [hst a]
    exact ⟨Int.natCast_nonneg _, by exact_mod_cast (Cert.Unpool.dst mk j a).isLt⟩
  unfold ScatterDims.resultIdx?
  rw [dif_pos h]
  congr 1
  funext a
  refine Fin.ext ?_
  show (D.start j (RefTerm.positions mk) a + (D.window j a : Int)).toNat = _
  rw [hst a]
  exact Int.toNat_natCast _

end Cert.ReferenceIdeal.RefIndex

end
-- ==== Proof.RefValue.lean ====
/-
  The reference's term is max-unpooling when every index word lies in its own window: the scatter-add's sum at a result
  position runs over the pooled entries whose decoded position is that one, and inside the windows this is the single
  entry of the position's own pixel if its word names the position, and no entry otherwise.
-/
import proofs.«424529_j59047210385945_3_alg».proof.Proof.Gen.ReferenceIdeal
import proofs.«424529_j59047210385945_3_alg».proof.Proof.RefTerm
import proofs.«424529_j59047210385945_3_alg».proof.Proof.Spec
import proofs.«424529_j59047210385945_3_alg».proof.Proof.Words
import proofs.«424529_j59047210385945_3_alg».proof.Proof.RefIndex
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- Inside the windows pooled entry `j` decodes to result position `i` exactly when `j` is the pixel whose window
    holds `i` and the word at `j` carries the parities of `i`'s row and column. -/
theorem dst_eq_iff (mk : IVec Cert.Unpool.SIn 32) (hw : Cert.Unpool.InWindow mk) (j : Cert.Unpool.SIn.Idx)
    (i : Cert.Unpool.SOut.Idx) :
    Cert.Unpool.dst mk j = i ↔ j = Cert.Unpool.src i ∧ mk j &&& 16512#32 = Cert.Unpool.pat i := by
  have hj1 : (j 1).val < 64 := (j 1).isLt
  have hj2 : (j 2).val < 64 := (j 2).isLt
  have hi1 : (i 1).val < 128 := (i 1).isLt
  have hi2 : (i 2).val < 128 := (i 2).isLt
  obtain ⟨w1, w2, w3, w4⟩ := hw j
  constructor
  · intro h
    have e0 : j 0 = i 0 := congrFun h 0
    have e1 : (mk j).toNat / 16384 % 128 = (i 1).val := congrArg Fin.val (congrFun h 1)
    have e2 : (mk j).toNat / 128 % 128 = (i 2).val := congrArg Fin.val (congrFun h 2)
    have e3 : j 3 = i 3 := congrFun h 3
    refine ⟨?_, ?_⟩
    · funext a
      match a with
      | ⟨0, _⟩ => exact e0
      | ⟨1, _⟩ => exact Fin.ext (show (j 1).val = (i 1).val / 2 by omega)
      | ⟨2, _⟩ => exact Fin.ext (show (j 2).val = (i 2).val / 2 by omega)
      | ⟨3, _⟩ => exact e3
    · unfold Cert.Unpool.pat
      exact (Cert.Unpool.Words.and_parity (mk j) ((i 1).val % 2) ((i 2).val % 2) (by omega) (by omega)).mpr
        ⟨by omega, by omega⟩
  · rintro ⟨hj, hp⟩
    have c0 : j 0 = i 0 := congrFun hj 0
    have c1 : (j 1).val = (i 1).val / 2 := congrArg Fin.val (congrFun hj 1)
    have c2 : (j 2).val = (i 2).val / 2 := congrArg Fin.val (congrFun hj 2)
    have c3 : j 3 = i 3 := congrFun hj 3
    unfold Cert.Unpool.pat at hp
    obtain ⟨p1, p2⟩ :=
      (Cert.Unpool.Words.and_parity (mk j) ((i 1).val % 2) ((i 2).val % 2) (by omega) (by omega)).mp hp
    funext a
    match a with
    | ⟨0, _⟩ => exact c0
    | ⟨1, _⟩ => exact Fin.ext (show (mk j).toNat / 16384 % 128 = (i 1).val by omega)
    | ⟨2, _⟩ => exact Fin.ext (show (mk j).toNat / 128 % 128 = (i 2).val by omega)
    | ⟨3, _⟩ => exact c3

/-- Inside the windows the reference's scatter-add of the pooled values is max-unpooling. -/
theorem refOut_eq (x : FVec Ideal S16x64x64x128 .f32) (mk : IVec S16x64x64x128 32) (hw : Cert.Unpool.InWindow mk) :
    RefTerm.refOut (F := Ideal) x mk = Cert.Unpool.unpool x mk := by
  funext i
  unfold RefTerm.refOut Host.scatterAdd
  rw [Ideal.hostScatterAdd_def]
  unfold Ideal.hostScatterAdd
  have hz : broadcastInDim S16x128x128x128 ![] bcast_S_S16x128x128x128
      (constant (F := Ideal) S_ .f32 0x00000000#32) i = (0 : EReal) := Ideal.ofBits_zero_f32
  rw [hz, zero_add]
  have hfilter :
      (Finset.univ.filter (fun j : S16x64x64x128.Idx =>
        scatter_S16x128x128x128_S16x64x64x128x4_S16x64x64x128_n_0123_0123_4.resultIdx? j (RefTerm.positions mk)
          = some i))
        = Finset.univ.filter (fun j : S16x64x64x128.Idx =>
            j = Cert.Unpool.src i ∧ mk j &&& 16512#32 = Cert.Unpool.pat i) := by
    apply Finset.filter_congr
    intro j _
    rw [RefIndex.resultIdx_positions mk hw j, Option.some.injEq, dst_eq_iff mk hw j i]
  rw [hfilter]
  unfold Cert.Unpool.unpool
  by_cases hP : mk (Cert.Unpool.src i) &&& 16512#32 = Cert.Unpool.pat i
  · rw [if_pos hP]
    have hs : Finset.univ.filter (fun j : S16x64x64x128.Idx =>
        j = Cert.Unpool.src i ∧ mk j &&& 16512#32 = Cert.Unpool.pat i) = {Cert.Unpool.src i} := by
      ext j
      simp only [Finset.mem_filter, Finset.mem_univ, true_and, Finset.mem_singleton]
      constructor
      · exact fun h => h.1
      · intro h; subst h; exact ⟨rfl, hP⟩
    rw [hs, Finset.sum_singleton]
  · rw [if_neg hP]
    have hs : Finset.univ.filter (fun j : S16x64x64x128.Idx =>
        j = Cert.Unpool.src i ∧ mk j &&& 16512#32 = Cert.Unpool.pat i) = ∅ := by
      ext j
      simp only [Finset.mem_filter, Finset.mem_univ, true_and, Finset.notMem_empty, iff_false]
      rintro ⟨h, hq⟩
      subst h
      exact hP hq
    rw [hs, Finset.sum_empty]

end Cert.ReferenceIdeal.RefValue

end
-- ==== Proof.KernelBlock.lean ====
/-
  What one grid point of the kernel writes back: the block of max-unpooling (five-axis layout) at that point. The body
  stores four pieces — row parity 0 or 1, column half 0 or 1 — each the pooled block where the masked word equals that
  piece's two bits and zero elsewhere.
-/
import proofs.«424529_j59047210385945_3_alg».proof.Proof.Gen.KernelIdeal.Frame
import proofs.«424529_j59047210385945_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.UnpoolBlock

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The pooled entry of the block that a position of the five-axis block belongs to. -/
def srcBlk (y : S1x32x2x64x256.Idx) : S1x32x64x128.Idx :=
  ix4 (n0 := 1) (n1 := 32) (n2 := 64) (n3 := 128) (y 0) (y 1) (y 3) ⟨(y 4).val % 128, Nat.mod_lt _ (by decide)⟩

/-- The two decision bits of a position of the five-axis block. -/
def patBlk (y : S1x32x2x64x256.Idx) : BitVec 32 := BitVec.ofNat 32 ((y 2).val * 16384 + (y 4).val / 128 * 128)

/-- Max-unpooling of one block. -/
def unpoolBlk (x0 : Vec Ideal S1x32x64x128 .f32) (x1 : Vec Ideal S1x32x64x128 .i32) : Vec Ideal S1x32x2x64x256 .f32 :=
  fun y => if x1 (srcBlk y) &&& 16512#32 = patBlk y then x0 (srcBlk y) else (0 : EReal)

/-- The pooled block re-read as three axes. -/
theorem pay3_apply (x0 : Vec Ideal S1x32x64x128 .f32) (r : Fin 32) (w : Fin 64) (l : Fin 128) :
    k0_pay3 (F := Ideal) x0 (ix3 r w l) = x0 (ix4 (n0 := 1) ⟨0, by decide⟩ r w l) := by
  unfold k0_pay3
  exact shapeCast_apply _ _ _ _ (by
    rw [Shape.rowMajor_val_four, Shape.rowMajor_val_three]
    show ((0 * 32 + r.val) * 64 + w.val) * 128 + l.val = (r.val * 64 + w.val) * 128 + l.val
    omega)

/-- The masked index block re-read as three axes. -/
theorem pay4_apply (x1 : Vec Ideal S1x32x64x128 .i32) (r : Fin 32) (w : Fin 64) (l : Fin 128) :
    k0_pay4 (F := Ideal) x1 (ix3 r w l) = x1 (ix4 (n0 := 1) ⟨0, by decide⟩ r w l) &&& 16512#32 := by
  unfold k0_pay4
  show IntOp.andi (shapeCast S32x64x128 x1 _ (ix3 r w l)) 16512#32 = _
  rw [shapeCast_apply _ _ _ (ix4 (n0 := 1) ⟨0, by decide⟩ r w l) (by
    rw [Shape.rowMajor_val_four, Shape.rowMajor_val_three]
    show ((0 * 32 + r.val) * 64 + w.val) * 128 + l.val = (r.val * 64 + w.val) * 128 + l.val
    omega)]
  rfl

/-- A store's payload — the pooled block where the masked word equals the constant `K`, zero elsewhere, re-read as five
    axes — at a position of its rectangle. -/
theorem piece_apply (K : BitVec 32) (x0 : Vec Ideal S1x32x64x128 .f32) (x1 : Vec Ideal S1x32x64x128 .i32)
    (a : Fin 1) (r : Fin 32) (b : Fin 1) (w : Fin 64) (l : Fin 128) :
    shapeCast S1x32x1x64x128
        (select (cmpi .eq (k0_pay4 (F := Ideal) x1) (broadcast S32x64x128 K)) (k0_pay3 x0)
          (broadcast S32x64x128 (Scalar.ofBits (F := Ideal) .f32 0x00000000#32)))
        shapeCasts_S32x64x128_S1x32x1x64x128 (ix5 a r b w l)
      = if x1 (ix4 (n0 := 1) ⟨0, by decide⟩ r w l) &&& 16512#32 = K
          then x0 (ix4 (n0 := 1) ⟨0, by decide⟩ r w l) else (0 : EReal) := by
  have ha : a.val < 1 := a.isLt
  have hb : b.val < 1 := b.isLt
  rw [shapeCast_apply _ _ (ix5 a r b w l) (ix3 r w l) (by
    rw [Shape.rowMajor_val_three, Shape.rowMajor_val_five]
    show (r.val * 64 + w.val) * 128 + l.val
      = (((a.val * 32 + r.val) * 1 + b.val) * 64 + w.val) * 128 + l.val
    omega)]
  rw [select_apply, pay3_apply, broadcast_apply]
  show Scalar.select (IntOp.cmpi .eq (k0_pay4 x1 (ix3 r w l)) K) _ (Ideal.ofBits .f32 0x00000000#32) = _
  rw [pay4_apply, Ideal.ofBits_zero_f32]
  exact if_congr IntOp.cmpi_eq rfl rfl

/-- The store at row parity 0, column half 0 writes max-unpooling of the block on its rectangle. -/
theorem piece1 (x0 : Vec Ideal S1x32x64x128 .f32) (x1 : Vec Ideal S1x32x64x128 .i32) (z : S1x32x1x64x128.Idx) :
    k0_pay6 (F := Ideal) x0 x1 z = unpoolBlk x0 x1 (r0_1.emb z) := by
  obtain ⟨a, r, b, w, l, rfl⟩ : ∃ (a : Fin 1) (r : Fin 32) (b : Fin 1) (w : Fin 64) (l : Fin 128), z = ix5 a r b w l :=
    ⟨z 0, z 1, z 2, z 3, z 4, eq_ix5 z⟩
  have ha : a.val < 1 := a.isLt
  have hb : b.val < 1 := b.isLt
  have hl : l.val < 128 := l.isLt
  refine (piece_apply 0#32 x0 x1 a r b w l).trans ?_
  have hs : srcBlk (r0_1.emb (ix5 a r b w l)) = ix4 (n0 := 1) ⟨0, by decide⟩ r w l := by
    funext e; apply Fin.ext
    match e with
    | ⟨0, _⟩ => show 0 + 1 * a.val = 0; omega
    | ⟨1, _⟩ => show 0 + 1 * r.val = r.val; omega
    | ⟨2, _⟩ => show 0 + 1 * w.val = w.val; omega
    | ⟨3, _⟩ => show (0 + 1 * l.val) % 128 = l.val; omega
  have hp : patBlk (r0_1.emb (ix5 a r b w l)) = 0#32 := by
    show BitVec.ofNat 32 ((0 + 1 * b.val) * 16384 + (0 + 1 * l.val) / 128 * 128) = 0#32
    rw [show (0 + 1 * b.val) * 16384 + (0 + 1 * l.val) / 128 * 128 = 0 by omega]
  unfold unpoolBlk
  rw [hs, hp]

/-- The store at row parity 0, column half 1 writes max-unpooling of the block on its rectangle. -/
theorem piece2 (x0 : Vec Ideal S1x32x64x128 .f32) (x1 : Vec Ideal S1x32x64x128 .i32) (z : S1x32x1x64x128.Idx) :
    k0_pay7 (F := Ideal) x0 x1 z = unpoolBlk x0 x1 (r0_2.emb z) := by
  obtain ⟨a, r, b, w, l, rfl⟩ : ∃ (a : Fin 1) (r : Fin 32) (b : Fin 1) (w : Fin 64) (l : Fin 128), z = ix5 a r b w l :=
    ⟨z 0, z 1, z 2, z 3, z 4, eq_ix5 z⟩
  have ha : a.val < 1 := a.isLt
  have hb : b.val < 1 := b.isLt
  have hl : l.val < 128 := l.isLt
  refine (piece_apply 128#32 x0 x1 a r b w l).trans ?_
  have hs : srcBlk (r0_2.emb (ix5 a r b w l)) = ix4 (n0 := 1) ⟨0, by decide⟩ r w l := by
    funext e; apply Fin.ext
    match e with
    | ⟨0, _⟩ => show 0 + 1 * a.val = 0; omega
    | ⟨1, _⟩ => show 0 + 1 * r.val = r.val; omega
    | ⟨2, _⟩ => show 0 + 1 * w.val = w.val; omega
    | ⟨3, _⟩ => show (128 + 1 * l.val) % 128 = l.val; omega
  have hp : patBlk (r0_2.emb (ix5 a r b w l)) = 128#32 := by
    show BitVec.ofNat 32 ((0 + 1 * b.val) * 16384 + (128 + 1 * l.val) / 128 * 128) = 128#32
    rw [show (0 + 1 * b.val) * 16384 + (128 + 1 * l.val) / 128 * 128 = 128 by omega]
  unfold unpoolBlk
  rw [hs, hp]

/-- The store at row parity 1, column half 0 writes max-unpooling of the block on its rectangle. -/
theorem piece3 (x0 : Vec Ideal S1x32x64x128 .f32) (x1 : Vec Ideal S1x32x64x128 .i32) (z : S1x32x1x64x128.Idx) :
    k0_pay1 (F := Ideal) (k0_pay8 x0 x1) z = unpoolBlk x0 x1 (r0_3.emb z) := by
  obtain ⟨a, r, b, w, l, rfl⟩ : ∃ (a : Fin 1) (r : Fin 32) (b : Fin 1) (w : Fin 64) (l : Fin 128), z = ix5 a r b w l :=
    ⟨z 0, z 1, z 2, z 3, z 4, eq_ix5 z⟩
  have ha : a.val < 1 := a.isLt
  have hb : b.val < 1 := b.isLt
  have hl : l.val < 128 := l.isLt
  refine (piece_apply 16384#32 x0 x1 a r b w l).trans ?_
  have hs : srcBlk (r0_3.emb (ix5 a r b w l)) = ix4 (n0 := 1) ⟨0, by decide⟩ r w l := by
    funext e; apply Fin.ext
    match e with
    | ⟨0, _⟩ => show 0 + 1 * a.val = 0; omega
    | ⟨1, _⟩ => show 0 + 1 * r.val = r.val; omega
    | ⟨2, _⟩ => show 0 + 1 * w.val = w.val; omega
    | ⟨3, _⟩ => show (0 + 1 * l.val) % 128 = l.val; omega
  have hp : patBlk (r0_3.emb (ix5 a r b w l)) = 16384#32 := by
    show BitVec.ofNat 32 ((1 + 1 * b.val) * 16384 + (0 + 1 * l.val) / 128 * 128) = 16384#32
    rw [show (1 + 1 * b.val) * 16384 + (0 + 1 * l.val) / 128 * 128 = 16384 by omega]
  unfold unpoolBlk
  rw [hs, hp]

/-- The store at row parity 1, column half 1 writes max-unpooling of the block on its rectangle. -/
theorem piece4 (x0 : Vec Ideal S1x32x64x128 .f32) (x1 : Vec Ideal S1x32x64x128 .i32) (z : S1x32x1x64x128.Idx) :
    k0_pay2 (F := Ideal) (k0_pay3 x0) (k0_pay5 x1) z = unpoolBlk x0 x1 (r0_4.emb z) := by
  obtain ⟨a, r, b, w, l, rfl⟩ : ∃ (a : Fin 1) (r : Fin 32) (b : Fin 1) (w : Fin 64) (l : Fin 128), z = ix5 a r b w l :=
    ⟨z 0, z 1, z 2, z 3, z 4, eq_ix5 z⟩
  have ha : a.val < 1 := a.isLt
  have hb : b.val < 1 := b.isLt
  have hl : l.val < 128 := l.isLt
  refine (piece_apply 16512#32 x0 x1 a r b w l).trans ?_
  have hs : srcBlk (r0_4.emb (ix5 a r b w l)) = ix4 (n0 := 1) ⟨0, by decide⟩ r w l := by
    funext e; apply Fin.ext
    match e with
    | ⟨0, _⟩ => show 0 + 1 * a.val = 0; omega
    | ⟨1, _⟩ => show 0 + 1 * r.val = r.val; omega
    | ⟨2, _⟩ => show 0 + 1 * w.val = w.val; omega
    | ⟨3, _⟩ => show (128 + 1 * l.val) % 128 = l.val; omega
  have hp : patBlk (r0_4.emb (ix5 a r b w l)) = 16512#32 := by
    show BitVec.ofNat 32 ((1 + 1 * b.val) * 16384 + (128 + 1 * l.val) / 128 * 128) = 16512#32
    rw [show (1 + 1 * b.val) * 16384 + (128 + 1 * l.val) / 128 * 128 = 16512 by omega]
  unfold unpoolBlk
  rw [hs, hp]

/-- The whole-block loads start at offset zero on every axis. -/
theorem zero_offsets : (![0, 0, 0, 0] : Fin 4 → Nat) = fun _ => 0 := funext fun a => by fin_cases a <;> rfl

/-- The four stores together leave max-unpooling of the block. -/
theorem out_eq (x0 : Vec Ideal S1x32x64x128 .f32) (x1 : Vec Ideal S1x32x64x128 .i32) :
    out0_2 (F := Ideal) x0 x1 = unpoolBlk x0 x1 := by
  unfold out0_2
  simp only [View.ld_unit_zero (S := S1x32x64x128) zero_offsets]
  funext y
  exact View.canon_apply_of_pieces (unpoolBlk x0 x1) _ (by
    intro p hp
    simp only [List.mem_cons, List.not_mem_nil, or_false] at hp
    rcases hp with rfl | rfl | rfl | rfl
    · exact piece4 x0 x1
    · exact piece3 x0 x1
    · exact piece2 x0 x1
    · exact piece1 x0 x1) y (cover0_2 _ _ _ _ y)

/-- The windows' index maps over the grid: the input windows move with the output window along batch and row block,
    and every other block index is zero. -/
theorem idx_facts : ∀ t : Fin cfg0.N,
    win0_0.index t (0 : Fin 4) = win0_2.index t (0 : Fin 5) ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5) ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0 :=
  (by decide +kernel : ∀ t : Fin grid0.N, _)

/-- Max-unpooling of the input blocks at a point is, position by position, max-unpooling of the arrays at the
    position's place in the output block of that point. -/
theorem unpoolBlk_iblk (c : Dev nD) (t : Fin cfg0.N) (y : S1x32x2x64x256.Idx) :
    unpoolBlk (iblk m c 0 t) (iblk m c 1 t) y
      = Cert.Unpool.unpoolMid (V m c main_arg0) (V m c main_arg1) (((cfg0.win 2).blk t).view.emb y) := by
  obtain ⟨e00, e01, e02, e03, e10, e11, e12, e13, e22, e23, e24⟩ := idx_facts t
  have h0 : iblk m c 0 t (srcBlk y) = V m c main_arg0 (Cert.Unpool.srcMid (((cfg0.win 2).blk t).view.emb y)) := by
    show V m c main_arg0 (((cfg0.win 0).blk t).view.emb (srcBlk y)) = _
    refine congrArg _ (funext fun a => Fin.ext ?_)
    match a with
    | ⟨0, _⟩ => show win0_0.index t (0 : Fin 4) * 1 + 1 * (y 0).val = win0_2.index t (0 : Fin 5) * 1 + 1 * (y 0).val; omega
    | ⟨1, _⟩ => show win0_0.index t (1 : Fin 4) * 32 + 1 * (y 1).val = win0_2.index t (1 : Fin 5) * 32 + 1 * (y 1).val; omega
    | ⟨2, _⟩ => show win0_0.index t (2 : Fin 4) * 64 + 1 * (y 3).val = win0_2.index t (3 : Fin 5) * 64 + 1 * (y 3).val; omega
    | ⟨3, _⟩ => show win0_0.index t (3 : Fin 4) * 128 + 1 * ((y 4).val % 128) = (win0_2.index t (4 : Fin 5) * 256 + 1 * (y 4).val) % 128; omega
  have h1 : iblk m c 1 t (srcBlk y) = V m c main_arg1 (Cert.Unpool.srcMid (((cfg0.win 2).blk t).view.emb y)) := by
    show V m c main_arg1 (((cfg0.win 1).blk t).view.emb (srcBlk y)) = _
    refine congrArg _ (funext fun a => Fin.ext ?_)
    match a with
    | ⟨0, _⟩ => show win0_1.index t (0 : Fin 4) * 1 + 1 * (y 0).val = win0_2.index t (0 : Fin 5) * 1 + 1 * (y 0).val; omega
    | ⟨1, _⟩ => show win0_1.index t (1 : Fin 4) * 32 + 1 * (y 1).val = win0_2.index t (1 : Fin 5) * 32 + 1 * (y 1).val; omega
    | ⟨2, _⟩ => show win0_1.index t (2 : Fin 4) * 64 + 1 * (y 3).val = win0_2.index t (3 : Fin 5) * 64 + 1 * (y 3).val; omega
    | ⟨3, _⟩ => show win0_1.index t (3 : Fin 4) * 128 + 1 * ((y 4).val % 128) = (win0_2.index t (4 : Fin 5) * 256 + 1 * (y 4).val) % 128; omega
  have hp : patBlk y = Cert.Unpool.patMid (((cfg0.win 2).blk t).view.emb y) := by
    show BitVec.ofNat 32 ((y 2).val * 16384 + (y 4).val / 128 * 128)
      = BitVec.ofNat 32 ((win0_2.index t (2 : Fin 5) * 2 + 1 * (y 2).val) * 16384 + (win0_2.index t (4 : Fin 5) * 256 + 1 * (y 4).val) / 128 * 128)
    rw [e22, e24]
    exact congrArg (BitVec.ofNat 32) (by omega)
  unfold unpoolBlk Cert.Unpool.unpoolMid
  rw [h0, h1, hp]

/-- What grid point `t` writes back is block `t` of max-unpooling (five-axis layout) of the argument arrays. -/
theorem flushed_eq (c : Dev nD) (t : Fin cfg0.N) :
    (dats m 0 c).flushed 2 t
      = ((cfg0.win 2).blk t).view.read (Elt Ideal) (Cert.Unpool.unpoolMid (V m c main_arg0) (V m c main_arg1)) := by
  show (cfg0.win 2).cut (grid0.coords t) ((dats m 0 c).after 2 t) = _
  rw [after0_2, out_eq]
  funext y
  exact unpoolBlk_iblk m c t y

end Cert.KernelIdeal.UnpoolBlock

end
-- ==== Proof.KernelValue.lean ====
/-
  The kernel program run, read: the blocks the grid points write back tile the five-axis array, so after the region it
  is max-unpooling in that layout, and the closing reshape reads it in row-major order as the result array.
-/
import proofs.«424529_j59047210385945_3_alg».proof.Proof.Gen.KernelIdeal.Frame
import proofs.«424529_j59047210385945_3_alg».proof.Proof.Spec
import proofs.«424529_j59047210385945_3_alg».proof.Proof.KernelBlock
import Idealize.ShloMosaic.Lib.ValueIdx
import Idealize.ShloMosaic.Lib.Pipeline.Value
import Idealize.ShloMosaic.Lib.StableHlo.Run

noncomputable section

namespace Cert.KernelIdeal.UnpoolValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Every pair (batch, half of the rows) is the block position of some grid point. -/
theorem point_onto : ∀ (q0 : Fin 16) (q1 : Fin 2), ∃ t : Fin cfg0.N, win0_2.index t = ![q0.val, q1.val, 0, 0, 0] :=
  (by decide +kernel : ∀ (q0 : Fin 16) (q1 : Fin 2), ∃ t : Fin grid0.N, win0_2.index t = ![q0.val, q1.val, 0, 0, 0])

/-- A position of the five-axis array is in a grid point's block iff each coordinate is in the block's range. -/
theorem mem_block (t : Fin cfg0.N) (i : S16x64x2x64x256.Idx) :
    i ∈ ((cfg0.win 2).blk t).view.set ↔ ∀ a : Fin 5, win0_2.index t a * S1x32x2x64x256.size a ≤ (i a).val
      ∧ (i a).val < win0_2.index t a * S1x32x2x64x256.size a + S1x32x2x64x256.size a := by
  show i ∈ ((View.whole main_v0).slice (win0_2.rect t)).set ↔ _
  rw [View.set_slice_whole, Rect.mem_set_unit]
  exact Iff.rfl

/-- The blocks tile the five-axis array: position (b, h, dh, w, l) is in the block of the point (b, h / 32). -/
theorem covered (i : S16x64x2x64x256.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 2 := (i 2).isLt
  have h3 : (i 3).val < 64 := (i 3).isLt
  have h4 : (i 4).val < 256 := (i 4).isLt
  obtain ⟨t, ht⟩ := point_onto ⟨(i 0).val, h0⟩ ⟨(i 1).val / 32, by omega⟩
  have q0 : win0_2.index t (0 : Fin 5) = (i 0).val := congrFun ht 0
  have q1 : win0_2.index t (1 : Fin 5) = (i 1).val / 32 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_block]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 32 ≤ (i 1).val ∧ (i 1).val < win0_2.index t (1 : Fin 5) * 32 + 32; omega
  | ⟨2, _⟩ => show win0_2.index t (2 : Fin 5) * 2 ≤ (i 2).val ∧ (i 2).val < win0_2.index t (2 : Fin 5) * 2 + 2; omega
  | ⟨3, _⟩ => show win0_2.index t (3 : Fin 5) * 64 ≤ (i 3).val ∧ (i 3).val < win0_2.index t (3 : Fin 5) * 64 + 64; omega
  | ⟨4, _⟩ => show win0_2.index t (4 : Fin 5) * 256 ≤ (i 4).val ∧ (i 4).val < win0_2.index t (4 : Fin 5) * 256 + 256; omega

/-- After the region the five-axis array is max-unpooling (five-axis layout) of the argument arrays. -/
theorem final (c : Dev nD) :
    (dats m 0 c).arrAt 2 cfg0.N
      = Cert.Unpool.unpoolMid (m ((c : Thread nD τ).loc main_arg0)) (m ((c : Thread nD τ).loc main_arg1)) :=
  (dats m 0 c).arrAt_eq_of_cover 2 (Cert.Unpool.unpoolMid (V m c main_arg0) (V m c main_arg1))
    (fun t _ => Cert.KernelIdeal.UnpoolBlock.flushed_eq m c t) covered

/-- The result array after the run: the closing reshape reads the five-axis array in row-major order. -/
theorem tail_result (c : Dev nD) :
    Pipeline.afterTail₀ cfgs (dats m) 0 (V0 m) [hostOps1] c main_v1
      = Cert.Unpool.unpool (m ((c : Thread nD τ).loc main_arg0)) (m ((c : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0)
        = Cert.Unpool.unpoolMid (m ((c : Thread nD τ).loc main_arg0)) (m ((c : Thread nD τ).loc main_arg1)) :=
    (Pipeline.withArrays_arr spec0 launch0.win.arr_inj c _ _ 2).trans (final m c)
  rw [e]
  exact Cert.Unpool.shapeCast_unpoolMid _ _ _

/-- Every weakly fair execution of the kernel program terminates with the result at max-unpooling of the argument arrays
    and the arguments unchanged. -/
theorem run : θ_run (defs (F := Ideal)) (onTc (τ := τ) (main (F := Ideal))) ⟨m, fun _ => 0, ρ⟩ fun r => ∀ c : Dev nD,
      r.2.mem ((c.tc : Thread nD τ).loc main_v1)
        = Cert.Unpool.unpool (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 (by decide) (by decide))).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.UnpoolValue

end
-- ==== Proof.lean ====
/-
  Max-unpooling over 2×2 windows: a masked four-way select against a scatter-add by decoded positions.

  The pooled array has shape [16, 64, 64, 128] and every entry comes with an index word encoding a position
  `(row · 128 + column) · 128 + channel` of the [16, 128, 128, 128] result. The reference decodes each word's row
  `k ⌊/⌋ 16384` and column `(k ⌊/⌋ 128) mod 128` and adds every pooled value into a zero array at (its batch, the decoded row,
  the decoded column, its channel). The kernel never decodes a position: it keeps bit 14 and bit 7 of the word (the row's
  and the column's parity) and writes the pooled value to the one cell of the entry's own 2×2 window those two bits name,
  and zero to the other three.

  The two agree when every word decodes to a position INSIDE the window of its own entry (row `2h` or `2h + 1`, column
  `2w` or `2w + 1` for the entry at row `h`, column `w`), which the precondition states: then the decoded row and column
  are the window's corner plus the two parity bits, distinct entries have distinct windows, so the sum the scatter-add
  forms at a result position has at most one term — the entry of the position's own pixel, present exactly when its word's
  parity bits name the position. Both programs therefore compute `Cert.Unpool.unpool`. No float law is used: the one
  float operation is `0 + x = x`, which holds at the infinities too.

  The kernel side holds for EVERY index array (its result is `unpool` by construction: Proof/KernelBlock.lean, the four
  stored pieces read at an index; Proof/KernelValue.lean, the blocks tiling the five-axis array and the closing
  reshape). The reference side uses the window property (Proof/RefRun.lean, the straight-line run; Proof/RefValue.lean,
  the scatter-add read at a position; Proof/Words.lean, the word arithmetic; Proof/PreDecode.lean, the precondition
  read back). The kernel has no idealization rewrite, so `preserves` is trivial.
-/
import proofs.«424529_j59047210385945_3_alg».proof.Defs
import proofs.«424529_j59047210385945_3_alg».proof.Proof.Gen.Kernel
import proofs.«424529_j59047210385945_3_alg».proof.Proof.Gen.Kernel.Skeleton
import proofs.«424529_j59047210385945_3_alg».proof.Proof.Gen.Kernel.Launch
import proofs.«424529_j59047210385945_3_alg».proof.Proof.Gen.Kernel.Points
import proofs.«424529_j59047210385945_3_alg».proof.Proof.Gen.Kernel.Frame
import proofs.«424529_j59047210385945_3_alg».proof.Proof.Gen.KernelIdeal
import proofs.«424529_j59047210385945_3_alg».proof.Proof.Gen.KernelIdeal.Skeleton
import proofs.«424529_j59047210385945_3_alg».proof.Proof.Gen.KernelIdeal.Launch
import proofs.«424529_j59047210385945_3_alg».proof.Proof.Gen.KernelIdeal.Points
import proofs.«424529_j59047210385945_3_alg».proof.Proof.Gen.KernelIdeal.Frame
import proofs.«424529_j59047210385945_3_alg».proof.Proof.Gen.ReferenceIdeal
import proofs.«424529_j59047210385945_3_alg».proof.Proof.Gen.Pre_finite_inputs
import proofs.«424529_j59047210385945_3_alg».proof.Proof.Spec
import proofs.«424529_j59047210385945_3_alg».proof.Proof.PreDecode
import proofs.«424529_j59047210385945_3_alg».proof.Proof.RefRun
import proofs.«424529_j59047210385945_3_alg».proof.Proof.RefValue
import proofs.«424529_j59047210385945_3_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its straight-line run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at max-unpooling of the arguments: the kernel for every index array, the reference because the
    precondition puts every index word inside its own window. -/
theorem algebraic : Cert.algebraic_KernelIdeal_ReferenceIdeal := by
  intro m ρ m' ρ' hpre hagree
  refine ⟨_, Cert.KernelIdeal.UnpoolValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq _ _ (Cert.Unpool.PreDecode.inWindow_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
